-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![512, 256]⟩ (Layout.meshBlock [2, 2, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x256 : Shape := ⟨2, ![256, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel

variable [Facts]

def fn {F : FTy → Type} [FloatOps F] (main_arg0 : FVec F S256x256 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  main_v3
-- ==== Pre_finite_inputs_ReferenceIdeal.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Kernel.lean ====
abbrev S256x256 : Shape := ⟨2, ![256, 256]⟩
abbrev S512x256 : Shape := ⟨2, ![512, 256]⟩
abbrev S_ : Shape := ⟨0, ![]⟩

abbrev nBuf : Space → Nat
  | .hbm => 2
  | .vmem => 2
  | .smem => 0
  | _ => 0

abbrev bufTy : (tb : Table) → Fin (tcTables nBuf tb) → BufTy
  | .hbm, ⟨0, _⟩ => ⟨S256x256, .f32⟩
  | .hbm, ⟨1, _⟩ => ⟨S512x256, .bf16⟩
  | .local _ .vmem, ⟨0, _⟩ => ⟨S256x256, .f32⟩
  | .local _ .vmem, ⟨1, _⟩ => ⟨S512x256, .bf16⟩
  | _, _ => ⟨S256x256, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_4 : BitVec 32 := 8#32
  let v11 : BitVec 32 := Scalar.muli v9 c8_i32_4
  let v12 : BitVec 32 := Scalar.addi c0_i32 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v17 : BitVec 32 := Scalar.muli v2 c256_i32
  let v21 : Index := Scalar.indexCast v17
  let c0_8 : Index := 0#32
  ![v21.toNat, 0]
def k0_off2 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v17 : BitVec 32 := Scalar.muli v2 c256_i32
  let c0_i32_14 : BitVec 32 := 0#32
  ![v17.toNat, 0]
def k0_dev2 (d0 : Dev nD) : Nat :=
  let c0_i32_11 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_10 : BitVec 32 := 8#32
  let v23 : BitVec 32 := Scalar.muli v9 c8_i32_10
  let v24 : BitVec 32 := Scalar.addi c0_i32_11 v23
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_12 : BitVec 32 := 4#32
  let v25 : BitVec 32 := Scalar.muli v5 c4_i32_12
  let v26 : BitVec 32 := Scalar.addi v24 v25
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_13 : BitVec 32 := 1#32
  let v27 : BitVec 32 := Scalar.muli v8 c1_i32_13
  let v28 : BitVec 32 := Scalar.addi v26 v27
  v28.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bitsLt_bf16_f32 : FTy.bits .bf16 < FTy.bits .f32
  hcc0_scratch0 : 2 + S_.numel ≤ 4
  hcc0_scratch1 : 3 + S_.numel ≤ 4
  k0_dev1_lt : ∀ d0 : Dev nD, (k0_dev1 d0) < nD
  k0_off1_inb : ∀ d0 : Dev nD, ∀ a, (k0_off1 d0) a + S256x256.size a ≤ S512x256.size a
  k0_off1_packedbf16 : ∀ d0 : Dev nD, (Rect.unit (s := S512x256) (k0_off1 d0) S256x256.size (k0_off1_inb d0)).PackedRows (EltTy.packing .bf16)
  k0_off2_inb : ∀ d0 : Dev nD, ∀ a, (k0_off2 d0) a + S256x256.size a ≤ S512x256.size a
  k0_off2_wordsbf16 : ∀ d0 : Dev nD, (Rect.unit (s := S512x256) (k0_off2 d0) S256x256.size (k0_off2_inb d0)).WholeWords (EltTy.packing .bf16)
  k0_dev2_lt : ∀ d0 : Dev nD, (k0_dev2 d0) < nD
  hstage0_0 : ∀ j, (stage0_0 j).IsWhole
  hstage0_1 : ∀ j, (stage0_1 j).IsWhole

variable [Facts₀]

abbrev cc0_scratch0 : DmaSems sig S_ := SemArray.consecutive 2 S_ hcc0_scratch0
abbrev cc0_scratch1 : DmaSems sig S_ := SemArray.consecutive 3 S_ hcc0_scratch1

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x256 : Shape := ⟨2, ![512, 256]⟩

abbrev nBuf : Space → Nat
  | .hbm => 2
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .bf16⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where
  bitsLt_bf16_f32 : FTy.bits .bf16 < FTy.bits .f32

variable [Facts₀]

class Facts : Prop extends Facts₀ where

variable [Facts]
-- ==== Proof.Proto.lean ====
/-
  An all-gather over the mesh axis x of a 2×2×4 mesh, two devices at a time: device c and its partner
  (the device with the other x coordinate and the same y, z: c ± 8) each hold one 256-row block of a
  512×256 array. Each converts its block to bf16 into its own rows of its 512×256 output buffer, tells
  the partner it has entered the kernel (one unit on the partner's barrier semaphore), waits for the
  partner's unit, copies its rows into the same rows of the partner's output buffer, and waits until
  its copy has been read (send semaphore) and the partner's copy has landed (receive semaphore).

  This module fixes the protocol: per device three cells (barrier, send, receive), one round each,
  one duty a round. The barrier duty, paid by the partner's signal, hands over the partner's rows of
  the payer's output buffer (the destination of the owner's copy) and the fact that the payer's receive
  cell is at round 0. The send duty gives back the source rows; the receive duty hands the owner the
  partner's rows of its own buffer at their final contents.
-/
import proofs.«900680_g7700000000000681_dist_ag_v7x_xyz2x2x4_x_m256_n256_bf16_1_alg».proof.Proof.Gen.KernelIdeal
import proofs.«900680_g7700000000000681_dist_ag_v7x_xyz2x2x4_x_m256_n256_bf16_1_alg».proof.Proof.Gen.KernelIdeal.Skeleton
import proofs.«900680_g7700000000000681_dist_ag_v7x_xyz2x2x4_x_m256_n256_bf16_1_alg».proof.Proof.Gen.KernelIdeal.Launch
import proofs.«900680_g7700000000000681_dist_ag_v7x_xyz2x2x4_x_m256_n256_bf16_1_alg».proof.Proof.Gen.KernelIdeal.Points
import Idealize.ShloMosaic.Lib.Pipeline.Launch
import Idealize.ShloMosaic.Lib.Pipeline.Kit
import Idealize.ShloMosaic.Lib.Tactic
import Idealize.ShloMosaic.Lib.ValueIdx

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (one duty a round) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The partner -/

/-- The device with the other x coordinate: device numbers are 8x + 4y + z. -/
def peer (c : Dev nD) : Dev nD := ⟨(c.val + 8) % 16, Nat.mod_lt _ (by decide)⟩
/-- The device of the pair with x = 0, and the one with x = 1. -/
def lo (c : Dev nD) : Dev nD := ⟨c.val % 8, Nat.lt_of_lt_of_le (Nat.mod_lt _ (by decide)) (by decide)⟩
def hi (c : Dev nD) : Dev nD := ⟨c.val % 8 + 8, by have := Nat.mod_lt c.val (show 0 < 8 by decide); show c.val % 8 + 8 < 16; omega⟩

theorem peer_peer (c : Dev nD) : peer (peer c) = c := by revert c; decide
theorem peer_ne (c : Dev nD) : peer c ≠ c := by revert c; decide
theorem lo_peer (c : Dev nD) : lo (peer c) = lo c := by revert c; decide
theorem hi_peer (c : Dev nD) : hi (peer c) = hi c := by revert c; decide
theorem lo_or_hi (c : Dev nD) : (c.val / 8 = 0 ∧ lo c = c ∧ hi c = peer c) ∨ (c.val / 8 = 1 ∧ hi c = c ∧ lo c = peer c) := by revert c; decide

/-- The kernel's two device chains both name the partner. -/
theorem dev1_eq (c : Dev nD) : (⟨k0_dev1 c, k0_dev1_lt c⟩ : Dev nD) = peer c :=
  Fin.ext ((k0_dev1_eq c).trans (by revert c; decide))
theorem dev2_eq (c : Dev nD) : (⟨k0_dev2 c, k0_dev2_lt c⟩ : Dev nD) = peer c :=
  Fin.ext ((k0_dev2_eq c).trans (by revert c; decide))

def pair : Dev nD ≃ Dev nD := ⟨peer, peer, peer_peer, peer_peer⟩

/-! ## The memrefs and cells -/

abbrev xM : Memref sig .tc .vmem S256x256 .f32 := Memref.whole cc0_stg0_0
abbrev oM : Memref sig .tc .vmem S512x256 .bf16 := Memref.whole cc0_stg1_0

/-- Device `d`'s own rows of a 512×256 output buffer: rows 256·x to 256·x + 255. -/
abbrev rowsR (d : Dev nD) : Rect S512x256 := Rect.unit (s := S512x256) (k0_off2 d) S256x256.size (k0_off2_inb d)
/-- The same rows as the vector store names them. -/
abbrev rowsS (d : Dev nD) : Rect S512x256 := Rect.unit (s := S512x256) (k0_off1 d) S256x256.size (k0_off1_inb d)
/-- The output buffer cut to device `d`'s rows: the source of `d`'s copy, and on the partner its destination. -/
abbrev half (d : Dev nD) : Memref sig .tc .vmem S256x256 .bf16 := oM.slice (rowsR d) (fun _ => rfl)

abbrev barS : Sem sig := (SemArray.scalar (sig.barrier 0 rfl) : Sems sig S_).sem
abbrev sendS : DmaSems sig S_ := cc0_scratch0
abbrev recvS : DmaSems sig S_ := cc0_scratch1

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores, as the launch indexes them: send, receive; -/
abbrev osem : Fin 2 → SemLoc sig := fun | 0 => .dma sendS.sem | 1 => .dma recvS.sem
/-- all three of the protocol's: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit of one copy of 256 rows. -/
abbrev N : ℕ := (half (0 : Dev nD)).view.dmaCredit
theorem N_pos : 0 < N := View.dmaCredit_pos _ (by decide)
theorem N_eq (d : Dev nD) : (half d).view.dmaCredit = N := rfl

/-! ## Contents -/

/-- Device `c`'s block of the argument, as staged. -/
def xstg (c : Dev nD) : (cc0_stg0_0 : Ref sig .tc).ty.Contents (Elt F) :=
  (win0_0.blk (0 : Fin 1)).view.read (Elt F) ((s₀ m ρ).mem ((c : Thread nD τ).loc main_arg0))

/-- What device `c` stores: its block converted. -/
def conv (c : Dev nD) : FVec F S256x256 .bf16 := k0_pay1 (xstg m ρ c)

/-- The output buffer's final contents on `c` (and on its partner): rows 0–255 are the converted block of
    the pair's x = 0 device, rows 256–511 that of its x = 1 device. -/
def outAt (c : Dev nD) : (cc0_stg1_0 : Ref sig .tc).ty.Contents (Elt F) := fun i =>
  if h : (i 0).val < 256 then conv m ρ (lo c) (ValueIdx.ix2 (⟨(i 0).val, h⟩ : Fin 256) (i 1))
  else conv m ρ (hi c) (ValueIdx.ix2 (⟨(i 0).val - 256, by have := (i 0).isLt; change (i 0).val < 512 at this; omega⟩ : Fin 256) (i 1))

theorem outAt_peer (c : Dev nD) : outAt m ρ (peer c) = outAt m ρ c := by
  unfold outAt; rw [lo_peer, hi_peer]

/-- Device `t`'s output buffer at device `d`'s rows, holding `f` there. -/
def hPts (t d : Dev nD) (f : Buf (Elt F) ((half d).view.loc (t : Thread nD τ))) : sProp 𝕄 :=
  (half d).view.loc (t : Thread nD τ) ↦[(half d).view.set]{fullShare} f
def xPts (c : Dev nD) : sProp 𝕄 :=
  (xM : Memref sig .tc .vmem S256x256 .f32).view.loc (c : Thread nD τ) ↦[(xM : Memref sig .tc .vmem S256x256 .f32).view.set]{fullShare} xstg m ρ c

omit [FloatOps F] in
instance hPts_storable (t d : Dev nD) (f) : BI.Storable (upEmb : UEmb _ 𝕄) (hPts (F := F) t d f) := by unfold hPts; infer_instance

/-! ## The schedule -/

/-- What the partner's signal hands `c`: `c`'s rows of the partner's buffer, and that the partner's receive cell is
    at round 0 (what the copy into it needs). -/
def barPay (c : Dev nD) : sProp 𝕄 := iprop((∃ f, hPts (peer c) c f) ∗ reached ER (recvCell (peer c)) 0)
/-- The source rows back, at their final contents. -/
def sendPay (c : Dev nD) : sProp 𝕄 := hPts c c (outAt m ρ c)
/-- The partner's rows of `c`'s own buffer, at their final contents. -/
def recvPay (c : Dev nD) : sProp 𝕄 := hPts c (peer c) (outAt m ρ c)

abbrev IsCell (g : GSem nD τ sig) : Prop := g.1.2 = .tc ∧ (g.2 = .reg barS ∨ g.2 = .dma sendS.sem ∨ g.2 = .dma recvS.sem)

/-- One round, round 0, one duty per cell: a barrier cell's of one unit, a send or receive cell's of the copy's credit. -/
def agRd : Rounds.Schedule (GSem nD τ sig) Unit 𝕄 where
  duties g r := if r = 0 ∧ IsCell g then {()} else ∅
  unitless _ := False
  amount g _ _ := if g.2 = .reg barS then 1 else N
  payload g _ _ :=
    if g.2 = .reg barS then barPay g.1.1
    else if g.2 = .dma recvS.sem then recvPay m ρ g.1.1
    else if g.2 = .dma sendS.sem then sendPay m ρ g.1.1
    else iprop(emp)
  amount_pos g _ _ _ := by
    by_cases h : g.2 = .reg barS
    · rw [if_pos h]; exact Nat.one_pos
    · rw [if_neg h]; exact N_pos

instance agRd_payload_storable (g : GSem nD τ sig) (r : ℕ) (d : Unit) :
    BI.Storable (upEmb : UEmb _ 𝕄) ((agRd (F := F) m ρ).payload g r d) := by
  show BI.Storable upEmb (if g.2 = .reg barS then barPay g.1.1 else if g.2 = .dma recvS.sem then recvPay m ρ g.1.1
    else if g.2 = .dma sendS.sem then sendPay m ρ g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (agRd (F := F) m ρ).duties (barCell c) 0 = {()} := by dsimp only [agRd]; exact if_pos ⟨rfl, rfl, .inl rfl⟩
theorem duties_send : (agRd (F := F) m ρ).duties (sendCell c) 0 = {()} := by dsimp only [agRd]; exact if_pos ⟨rfl, rfl, .inr (.inl rfl)⟩
theorem duties_recv : (agRd (F := F) m ρ).duties (recvCell c) 0 = {()} := by dsimp only [agRd]; exact if_pos ⟨rfl, rfl, .inr (.inr rfl)⟩
theorem duties_later (g : GSem nD τ sig) : ∀ r, 1 ≤ r → (agRd (F := F) m ρ).duties g r = ∅ :=
  fun r hr => by dsimp only [agRd]; rw [if_neg fun h => by omega]

theorem amount_bar (d : Unit) : (agRd (F := F) m ρ).amount (barCell c) 0 d = 1 := by dsimp only [agRd]; exact if_pos rfl
theorem amount_send (d : Unit) : (agRd (F := F) m ρ).amount (sendCell c) 0 d = N := by dsimp only [agRd]; exact if_neg send_ne_bar
theorem amount_recv (d : Unit) : (agRd (F := F) m ρ).amount (recvCell c) 0 d = N := by dsimp only [agRd]; exact if_neg recv_ne_bar

theorem expect_bar : (agRd (F := F) m ρ).expect (barCell c) 0 = 1 := by
  unfold Schedule.expect Schedule.amountOf; rw [duties_bar, Finset.sum_singleton, amount_bar]
theorem expect_send : (agRd (F := F) m ρ).expect (sendCell c) 0 = N := by
  unfold Schedule.expect Schedule.amountOf; rw [duties_send, Finset.sum_singleton, amount_send]
theorem expect_recv : (agRd (F := F) m ρ).expect (recvCell c) 0 = N := by
  unfold Schedule.expect Schedule.amountOf; rw [duties_recv, Finset.sum_singleton, amount_recv]

theorem payload_bar (d : Unit) : (agRd (F := F) m ρ).payload (barCell c) 0 d = barPay c := by dsimp only [agRd]; rw [if_pos rfl]
theorem payload_send (d : Unit) : (agRd (F := F) m ρ).payload (sendCell c) 0 d = sendPay m ρ c := by
  dsimp only [agRd]; rw [if_neg send_ne_bar, if_neg send_ne_recv, if_pos rfl]
theorem payload_recv (d : Unit) : (agRd (F := F) m ρ).payload (recvCell c) 0 d = recvPay m ρ c := by
  dsimp only [agRd]; rw [if_neg recv_ne_bar, if_pos rfl]

theorem rest_bar : bigSep ((agRd (F := F) m ρ).duties (barCell c) 0 \ ∅) (fun d => (agRd (F := F) m ρ).payload (barCell c) 0 d) = barPay c := by
  rw [Finset.sdiff_empty, duties_bar, bigSep_singleton, payload_bar]
theorem rest_send : bigSep ((agRd (F := F) m ρ).duties (sendCell c) 0 \ ∅) (fun d => (agRd (F := F) m ρ).payload (sendCell c) 0 d) = sendPay m ρ c := by
  rw [Finset.sdiff_empty, duties_send, bigSep_singleton, payload_send]
theorem rest_recv : bigSep ((agRd (F := F) m ρ).duties (recvCell c) 0 \ ∅) (fun d => (agRd (F := F) m ρ).payload (recvCell c) 0 d) = recvPay m ρ c := by
  rw [Finset.sdiff_empty, duties_recv, bigSep_singleton, payload_recv]

end Sched

/-! ## What each device owes at launch; the levels -/

/-- Device `c` owes its partner's receive cell the copy's credit and its partner's barrier cell one unit (the
    signal, first, peels the last summand). -/
def O₀ (c : Dev nD) : CellTallies nD τ sig Unit := tallyAt (recvCell (peer c)) () N + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its partner's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens: its own three, its partner's barrier cell (its signal) and its
    partner's receive cell (its copy). -/
def invs (K : Dev nD × Fin 3 → ℕ) (c : Dev nD) : sProp 𝕄 :=
  iprop(cellInv ER (agRd m ρ) (K (c, 0)) (barCell c) ∗ cellInv ER (agRd m ρ) (K (c, 1)) (sendCell c) ∗ cellInv ER (agRd m ρ) (K (c, 2)) (recvCell c)
    ∗ cellInv ER (agRd m ρ) (K (peer c, 0)) (barCell (peer c)) ∗ cellInv ER (agRd m ρ) (K (peer c, 2)) (recvCell (peer c)))

instance invs_persistent (K : Dev nD × Fin 3 → ℕ) (c : Dev nD) : BI.Persistent (invs m ρ K c) := by unfold invs; infer_instance

/-- The protocol's ghost state device `c` starts from: the invariants; its positions at round 0 of its three cells;
    round 0 reached on the cells it pays and on its own send and receive cells; the three duty tokens it pays with. -/
def ghost (K : Dev nD × Fin 3 → ℕ) (c : Dev nD) : sProp 𝕄 :=
  iprop(invs m ρ K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- What device `c`'s body starts from: that at some names, its two credit tokens and the level facts. -/
def start (c : Dev nD) : sProp 𝕄 :=
  iprop((∃ K, ghost m ρ K c) ∗ cred (tallyAt (barCell c) () 1) ∗ cred (tallyAt (recvCell c) () N) ∗ levAts L lv)

def Φ₀ (c : Dev nD) : sProp 𝕄 := start m ρ c
/-- After the point: the two own cells at zero, closed (the barrier cell is the runtime's: nothing to hand back). -/
def Φ₁ (c : Dev nD) : sProp 𝕄 := iprop(semVal (sendCell c) 0 ∗ semVal (recvCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer whole at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body at the one grid point starts from, and what it leaves. -/
def bodyPre (K : Dev nD × Fin 3 → ℕ) (c : Dev nD) : sProp 𝕄 :=
  iprop((ghost m ρ K c ∗ cred (tallyAt (barCell c) () 1) ∗ cred (tallyAt (recvCell c) () N) ∗ levAts L lv)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

end Cert.KernelIdeal.AG

end
-- ==== Proof.Geom.lean ====
/-
  The geometry of the two halves of a device's 512×256 output buffer, and what the store and the landing leave
  in them: device c's own rows and its partner's rows are complementary; the vector store of the converted
  block leaves the final contents in c's rows; a copy of c's rows at their final contents leaves the final
  contents in the same rows of the partner's buffer (the pair's two buffers end equal).
-/
import proofs.«900680_g7700000000000681_dist_ag_v7x_xyz2x2x4_x_m256_n256_bf16_1_alg».proof.Proof.Proto
import Idealize.ShloMosaic.Lib.Pipeline.Value

noncomputable section

namespace Cert.KernelIdeal.AG

open Cert.KernelIdeal Cert.KernelIdeal.Gen
open Idealize.ShloMosaic
open Idealize.ShloMosaic.TcCoe

variable {F : FTy → Type} [FloatOps F]
variable (m : (ℓ : Loc nD τ sig) → Buf (Elt F) ℓ) (ρ : Dev nD → PrngReg)

/-! ## Rows -/

/-- The partner has the other x coordinate. -/
theorem peer_div (c : Dev nD) : (peer c).val / 8 = 1 - c.val / 8 := by revert c; decide
theorem div_le (c : Dev nD) : c.val / 8 ≤ 1 := by revert c; decide

/-- Device d's rows are the rows 256·x to 256·x + 255, x its first mesh coordinate: membership by the row alone. -/
theorem mem_half (d : Dev nD) (i : (cc0_stg1_0 : Ref sig .tc).ty.Idx) :
    i ∈ ((half d).view.set : Finset (cc0_stg1_0 : Ref sig .tc).ty.Idx)
      ↔ 256 * (d.val / 8) ≤ (i 0).val ∧ (i 0).val < 256 * (d.val / 8) + 256 := by
  have h1 : (i 1).val < 256 := (i 1).isLt
  rw [show ((half d).view.set : Finset (cc0_stg1_0 : Ref sig .tc).ty.Idx) = (rowsR d).set from
    View.set_slice_whole cc0_stg1_0 (rowsR d), Rect.mem_set_unit, k0_off2_eq]
  constructor
  · intro h; exact h 0
  · intro h a
    match a with
    | ⟨0, _⟩ => exact h
    | ⟨1, _⟩ => exact ⟨Nat.zero_le _, by show (i 1).val < 0 + 256; omega⟩

/-- The partner's rows are exactly the rows that are not c's. -/
theorem rows_compl (c : Dev nD) :
    ((half (peer c)).view.set : Finset (cc0_stg1_0 : Ref sig .tc).ty.Idx) = Finset.univ \ (half c).view.set := by
  ext i
  have h0 : (i 0).val < 512 := (i 0).isLt
  have hp := peer_div c
  have hc := div_le c
  rw [Finset.mem_sdiff, mem_half, mem_half, hp]
  constructor
  · intro h; exact ⟨Finset.mem_univ _, by omega⟩
  · intro h; have := h.2; omega

/-- A store through a unit-stride rectangle at the offsets of c's rows, however they are spelt, goes through c's rows. -/
theorem set_access_rows (c : Dev nD) (off : Fin S512x256.rank → Nat) (inb : ∀ a, off a + S256x256.size a ≤ S512x256.size a)
    (h : off = k0_off2 c) :
    (((oM : Memref sig .tc .vmem S512x256 .bf16).access (Rect.unit (s := S512x256) off S256x256.size inb) : View sig .tc .vmem _ .bf16).set
        : Finset (cc0_stg1_0 : Ref sig .tc).ty.Idx) = (half c).view.set := by
  subst h; rfl

/-- The vector store goes through c's rows. -/
theorem store_set (c : Dev nD) :
    (((oM : Memref sig .tc .vmem S512x256 .bf16).access (rowsS c) : View sig .tc .vmem _ .bf16).set : Finset (cc0_stg1_0 : Ref sig .tc).ty.Idx)
      = (half c).view.set :=
  set_access_rows c _ _ ((k0_off1_eq c).trans (k0_off2_eq c).symm)

/-- Where an element of d's rows sits in the buffer: 256·x rows down, the same column. -/
theorem emb_half (d : Dev nD) (y : S256x256.Idx) :
    (((half d).view.emb y) 0).val = 256 * (d.val / 8) + (y 0).val ∧ (((half d).view.emb y) 1).val = (y 1).val := by
  have e0 : (((half d).view.emb y) 0).val = k0_off2 d 0 + 1 * (y 0).val := rfl
  have e1 : (((half d).view.emb y) 1).val = k0_off2 d 1 + 1 * (y 1).val := rfl
  rw [e0, e1, k0_off2_eq]
  exact ⟨by show 256 * (d.val / 8) + 1 * (y 0).val = _; omega, by show 0 + 1 * (y 1).val = _; omega⟩

/-- The final contents at an element of c's rows: c's converted block there. -/
theorem outAt_emb (c : Dev nD) (y : S256x256.Idx) :
    outAt m ρ c ((half c).view.emb y) = conv m ρ c y := by
  obtain ⟨e0, e1⟩ := emb_half c y
  have hy0 : (y 0).val < 256 := (y 0).isLt
  unfold outAt
  rcases lo_or_hi c with ⟨hx, hl, -⟩ | ⟨hx, hh, -⟩
  · rw [hx] at e0
    rw [dif_pos (by omega), hl]
    congr 1
    funext a
    match a with
    | ⟨0, _⟩ => exact Fin.ext (by show (((half c).view.emb y) 0).val = (y 0).val; omega)
    | ⟨1, _⟩ => exact Fin.ext e1
  · rw [hx] at e0
    rw [dif_neg (by omega), hh]
    congr 1
    funext a
    match a with
    | ⟨0, _⟩ => exact Fin.ext (by show (((half c).view.emb y) 0).val - 256 = (y 0).val; omega)
    | ⟨1, _⟩ => exact Fin.ext e1

/-! ## Writing through a view -/

/-- Through any view: writing back, over the whole view, what the view reads of f gives f on the view's elements. -/
theorem write_read_self {sig : RefSig} {κ : Kind} {sp : Space} {S : Shape} {e : EltTy} {Val : EltTy → Type}
    (v : View sig κ sp S e) (fd f : v.ty.Contents Val) :
    ∀ i ∈ v.set, v.write Val fd (v.read Val f) Finset.univ i = f i := by
  intro i hi
  obtain ⟨y, rfl⟩ := View.exists_emb_of_mem_set v hi
  rw [View.write_emb_of_mem _ _ (Finset.mem_univ y), View.read_apply, cast_cast, cast_eq]

/-- A store of c's converted block through a unit-stride rectangle at the offsets of c's rows leaves c's rows at
    their final contents. -/
theorem write_access_rows (c : Dev nD) (off : Fin S512x256.rank → Nat) (inb : ∀ a, off a + S256x256.size a ≤ S512x256.size a)
    (h : off = k0_off2 c) (f0 : (cc0_stg1_0 : Ref sig .tc).ty.Contents (Elt F)) :
    ∀ i ∈ ((half c).view.set : Finset (cc0_stg1_0 : Ref sig .tc).ty.Idx),
      ((oM : Memref sig .tc .vmem S512x256 .bf16).access (Rect.unit (s := S512x256) off S256x256.size inb) : View sig .tc .vmem _ .bf16).write
        (Elt F) f0 (conv m ρ c) Finset.univ i = outAt m ρ c i := by
  subst h
  intro i hi
  obtain ⟨y, rfl⟩ := View.exists_emb_of_mem_set (half c).view hi
  rw [outAt_emb]
  exact View.write_emb_of_mem (v := (half c).view) f0 (conv m ρ c) (Finset.mem_univ y)

/-- After the store, c's rows hold their final contents. -/
theorem store_agree (c : Dev nD) (f0 : (cc0_stg1_0 : Ref sig .tc).ty.Contents (Elt F)) :
    ∀ i ∈ ((half c).view.set : Finset (cc0_stg1_0 : Ref sig .tc).ty.Idx),
      ((oM : Memref sig .tc .vmem S512x256 .bf16).access (rowsS c) : View sig .tc .vmem _ .bf16).write (Elt F) f0 (conv m ρ c) Finset.univ i = outAt m ρ c i :=
  write_access_rows m ρ c _ _ ((k0_off1_eq c).trans (k0_off2_eq c).symm) f0

/-- A copy of c's rows at their final contents leaves the partner's final contents in the same rows there. -/
theorem landed_agree (c : Dev nD) (fd : (cc0_stg1_0 : Ref sig .tc).ty.Contents (Elt F)) :
    ∀ i ∈ ((half c).view.set : Finset (cc0_stg1_0 : Ref sig .tc).ty.Idx),
      (half c).view.write (Elt F) fd ((half c).view.read (Elt F) (outAt m ρ c)) Finset.univ i = outAt m ρ (peer c) i := by
  intro i hi
  rw [outAt_peer]
  exact write_read_self (half c).view fd (outAt m ρ c) i hi

/-- info: 'Cert.KernelIdeal.AG.rows_compl' depends on axioms: [propext, Classical.choice, Quot.sound] -/
#guard_msgs in #print axioms rows_compl
/-- info: 'Cert.KernelIdeal.AG.store_agree' depends on axioms: [propext, Classical.choice, Quot.sound] -/
#guard_msgs in #print axioms store_agree
/-- info: 'Cert.KernelIdeal.AG.landed_agree' depends on axioms: [propext, Classical.choice, Quot.sound] -/
#guard_msgs in #print axioms landed_agree

end Cert.KernelIdeal.AG

end
-- ==== Proof.Body.lean ====
/-
  One device's body, stepped from the protocol's ghost state: the signal pays the partner's barrier duty with the
  partner's rows of this device's buffer; the store leaves this device's rows at their final contents; the barrier
  wait brings this device's rows of the partner's buffer; the copy pays its own send duty (the source rows back) and
  the partner's receive duty (the partner's copy of these rows, final); the two waits bring both halves back, and
  they rejoin to the whole buffer at its final contents.
-/
import proofs.«900680_g7700000000000681_dist_ag_v7x_xyz2x2x4_x_m256_n256_bf16_1_alg».proof.Proof.Proto
import proofs.«900680_g7700000000000681_dist_ag_v7x_xyz2x2x4_x_m256_n256_bf16_1_alg».proof.Proof.Geom

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body
variable (K : Dev nD × Fin 3 → ℕ)

/-- The whole output buffer is its own rows and the partner's rows. -/
theorem out_split (c : Dev nD) (g : Buf (Elt F) ((c : Thread nD τ).loc cc0_stg1_0)) :
    ((c : Thread nD τ).loc cc0_stg1_0 ↦{fullShare} g : sProp 𝕄) ⊣⊢ iprop(hPts c c g ∗ hPts c (peer c) g) := by
  unfold hPts
  rw [rows_compl]
  exact BI.Region.is_split_subset (Finset.subset_univ _)

abbrev r0 : Rect S256x256 := Rect.unit (s := S256x256) ![0, 0] S256x256.size inb_S256x256_S256x256_0_0

omit [FloatOps F] in
theorem hz : (![0, 0] : Fin 2 → Nat) = fun _ => 0 := funext fun a => by fin_cases a <;> rfl
omit [FloatOps F] in
theorem read_x (f : (cc0_stg0_0 : Ref sig .tc).ty.Contents (Elt F)) : (xM : Memref sig .tc .vmem S256x256 .f32).view.readAt (Elt F) r0.toLoadRect f = f :=
  Memref.readAt_unit_zero (Elt F) cc0_stg0_0 hz _ f

omit [FloatOps F] in
theorem xPts_eq [FloatOps F] (c : Dev nD) : xPts m ρ c = (((c : Thread nD τ).loc cc0_stg0_0) ↦{fullShare} xstg m ρ c : sProp 𝕄) := by
  unfold xPts; rw [View.set_whole]

theorem xPts_eq' (c : Dev nD) :
    ((xM : Memref sig .tc .vmem S256x256 .f32).view.loc (c : Thread nD τ) ↦[(xM : Memref sig .tc .vmem S256x256 .f32).view.set]{fullShare} xstg m ρ c : sProp 𝕄)
      = (((c : Thread nD τ).loc cc0_stg0_0) ↦{fullShare} xstg m ρ c : sProp 𝕄) := xPts_eq m ρ c

/-- The partner's barrier duty hands over the partner's rows of this device's buffer and that this device's receive
    cell is at round 0. -/
theorem payload_bar_peer (c : Dev nD) : (agRd m ρ).payload (barCell (peer c)) 0 () =
    iprop((∃ f, ((half (peer c)).view.loc (c : Thread nD τ) ↦[(half (peer c)).view.set]{fullShare} f)) ∗ reached ER (recvCell c) 0) := by
  rw [payload_bar]; unfold barPay hPts; rw [peer_peer]

/-- The copy of this device's rows into the same rows of the partner's buffer, addressed to `n = peer c`: it pays this
    device's send duty with the source rows and the partner's receive duty with the rows it lands. -/
theorem wp_send_pair (c n : Dev nD) (hn : n = peer c)
    {hsc : (half c : Memref sig (Dev.tc n : Thread nD τ).2.kind .vmem S256x256 .bf16).view.ref.isScScratch = false}
    {hsrc : (half c : Memref sig .tc .vmem S256x256 .bf16).view.WordExact} {hdst : (half c : Memref sig .tc .vmem S256x256 .bf16).view.WordExact}
    {hsem : DmaTarget.Typed .vmem (.dma recvS.sem) (.remote (Dev.tc n : Thread nD τ) (half c : Memref sig .tc .vmem S256x256 .bf16) (.dma sendS.sem) hsc)}
    {α : Type} {Q : α → sProp 𝕄} {k : PUnit → Prog (TpuEff nD τ sig (Elt F) Λ₀ .tc) α}
    (fn : Buf (Elt F) ((half c).view.loc (peer c : Thread nD τ))) (W : Waits sig Unit) :
    iprop(cellInv ER (agRd m ρ) (K (c, 1)) (sendCell c) ∗ cellInv ER (agRd m ρ) (K (peer c, 2)) (recvCell (peer c))
        ∗ hPts c c (outAt m ρ c) ∗ hPts (peer c) c fn
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (half c) (.remote (Dev.tc n : Thread nD τ) (half c) (.dma sendS.sem) hsc) (.dma recvS.sem) hsrc hdst hsem) k) Q) := by
  subst hn
  unfold hPts
  exact Rounds.wp_send_pointsTo 𝒱₀ ER (agRd m ρ) (c : Thread nD τ) none (κ₁ := K (c, 1)) (κ₂ := K (peer c, 2))
    (r₁ := 0) (r₂ := 0) (d₁ := ()) (d₂ := ()) (fd := fn)
    (by rw [duties_send]; exact Finset.mem_singleton_self _) (by rw [duties_recv]; exact Finset.mem_singleton_self _)
    () () N rfl (amount_send m ρ c ()) (amount_recv m ρ (peer c) ()) 0 (by rw [zero_add]) (W := W)
    (by rw [payload_send]; unfold sendPay hPts; exact BI.Entails.refl _)
    (by rw [payload_recv]; unfold recvPay hPts; rw [peer_peer]; exact Entails.of_eq (BI.Region.is_congr (landed_agree m ρ c fn)))

attribute [local sl_rounds] duties_bar duties_send duties_recv amount_bar amount_send amount_recv expect_bar expect_send expect_recv
  payload_bar_peer payload_send payload_recv
attribute [local sl_canon] dev1_eq dev2_eq

set_option maxHeartbeats 800000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) cc0_scratch0 cc0_scratch1) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs
  iintro ⟨⟨⟨⟨⟨#HIbar, #HIsnd, #HIrcv, #HIbarP, #HIrcvP⟩, HatB, HatS, HatV, #HrBP, #HrVP, #HrS, #HrV, HtBP, HtVP, HtS⟩, HcB, HcV, #Hlev⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀
  ihave Hh := (out_split c g1).1 $$ Hout
  unfold hPts
  icases Hh with ⟨Hmine, Htheirs⟩
  simp only [dev1_eq c, dev2_eq c]
  -- the signal to the partner's barrier: its one duty, with the partner's rows of this buffer
  iapply (Rounds.wp_signal 𝒱₀ ER (agRd m ρ) (c : Thread nD τ) none (dst := (peer c : Thread nD τ)) (κ := K (peer c, 0))
      (d := ()) (by rw [duties_bar]; exact Finset.mem_singleton_self _) ((amount_bar m ρ (peer c) ()).trans (by decide)) () (tallyAt (recvCell (peer c)) () N) rfl)
    $$ [HO HtBP Htheirs]
  · isplitr; · iexact HIbarP
    isplitl [HO]; · iexact HO
    isplitl [HtBP]; · iexact HtBP
    isplitl [Htheirs]
    · rw [payload_bar_peer]
      isplitl [Htheirs]; · iexists g1; iexact Htheirs
      iexact HrV
    · iexact HrBP
  iintro HO
  ihave Hx := (Entails.of_eq (xPts_eq m ρ c).symm) $$ Hx
  unfold xPts
  sl_exec
  -- the load of this device's rows of the output buffer (their old contents are not used)
  iapply (wp_load_rect 𝒱₀ (c : Thread nD τ) none Set.univ (m := oM) (r := rowsS c) (by rw [store_set])) $$ Hmine; iintro Hmine
  rw [read_x]
  -- the store: this device's rows now hold their final contents
  iapply (wp_store 𝒱₀ (c : Thread nD τ) none Set.univ (m := oM) (r := rowsS c) (Mk := Finset.univ) (by rw [View.setOn_univ, store_set])) $$ Hmine; iintro Hmine
  have hstore := store_agree m ρ c g1
  unfold conv at hstore
  ihave Hmine := (Entails.of_eq (BI.Region.is_congr hstore)) $$ Hmine
  -- the wait on its own barrier, owing the partner's receive credit: this device's rows of the partner's buffer come with it
  iapply (Rounds.wp_wait_rest_token 𝒱₀ ER (agRd m ρ) (c : Thread nD τ) none (κ := K (c, 0))
      (wpE_semWait_eq 𝒱₀ (c : Thread nD τ) none Set.univ) (Set.mem_univ _) () (O := tallyAt (recvCell (peer c)) () N) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  unfold barPay
  icases Hp with ⟨⟨%fn, HdstP⟩, #HrVP'⟩
  -- the copy to the partner
  iapply (wp_send_pair m ρ K c _ (dev2_eq c) fn (insert (SemLoc.reg barS, ()) W)) $$ [Hmine HdstP HO HtS HtVP]
  · isplitr; · iexact HIsnd
    isplitr; · iexact HIrcvP
    isplitl [Hmine]; · unfold hPts; iexact Hmine
    isplitl [HdstP]; · iexact HdstP
    isplitl [HO]; · iexact HO
    isplitl [HtS]; · iexact HtS
    isplitr; · iexact HrS
    isplitl [HtVP]; · iexact HtVP
    iexact HrVP
  iintro ⟨HcS, HO⟩
  -- the wait on its send cell: the source rows back
  iapply (Rounds.wp_wait_rest_token 𝒱₀ ER (agRd m ρ) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      (by rw [Nat.zero_add, expect_send])) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave Hmine := (Entails.of_eq (rest_send m ρ c)) $$ Hpay
  -- the wait on its receive cell: the partner's rows of its own buffer, final
  iapply (Rounds.wp_wait_rest_token 𝒱₀ ER (agRd m ρ) (c : Thread nD τ) none (κ := K (c, 2))
      (wpE_waitDma2_eq 𝒱₀ (c : Thread nD τ) none Set.univ) (Set.mem_univ _) () (O := 0)
      (W := insert (SemLoc.dma sendS.sem, ()) (insert (SemLoc.reg barS, ()) W)) (R := 0) (m := 0) (T := ∅)
      (by rw [Nat.zero_add, expect_recv])) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Htheirs := (Entails.of_eq (rest_recv m ρ c)) $$ Hpay
  -- the two own cells close: their counters at zero are the device's again
  imod (Rounds.cell_close ER (agRd m ρ) (Set.mem_univ (K (c, 1))) (fun h => h) (R := 0 + 1) (duties_later m ρ (sendCell c))) $$ [HatS] with HzS
  · isplitr; · iexact HIsnd
    iexact HatS
  imod (Rounds.cell_close ER (agRd m ρ) (Set.mem_univ (K (c, 2))) (fun h => h) (R := 0 + 1) (duties_later m ρ (recvCell c))) $$ [HatV] with HzV
  · isplitr; · iexact HIrcv
    iexact HatV
  -- the two halves, both final, are the whole buffer
  ihave Hout := (out_split c (outAt m ρ c)).2 $$ [Hmine Htheirs]
  · unfold sendPay recvPay; isplitl [Hmine] <;> iassumption
  ihave Hx := (Entails.of_eq (xPts_eq' m ρ c)) $$ Hx
  rw [wp_ret]; imodintro
  iapply Hk
  unfold bodyPost Φ₁ Dat.owesAt Pipeline.owesWithin
  rw [show (dats m ρ 0 c).owed t₀.succ = 0 from rfl]
  isplitl [HzS HzV]
  · isplitl [HzS]; · iexact HzS
    iexact HzV
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
/-- The body's precondition as the launch states it. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The body obligation on device `c`, at the one grid point. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _) cc0_scratch0 cc0_scratch1)
    (fun _ => bodyPost m ρ c)
  unfold bodyPre' Φ₀ start
  iintro ⟨⟨⟨%K, Hg⟩, Hrest⟩, Ho, Hx, Hout⟩
  iapply (sound_body m ρ K c fun _ => bodyPost m ρ c)
  unfold bodyPre
  isplitr []
  · isplitl [Hg Hrest]
    · isplitl [Hg]; · iexact Hg
      iexact Hrest
    isplitl [Ho]; · iexact Ho
    isplitl [Hx] <;> iassumption
  · iintro H; iexact H

/-- info: 'Cert.KernelIdeal.AG.body_obligation' depends on axioms: [propext, Classical.choice, Quot.sound] -/
#guard_msgs in #print axioms body_obligation

end Body

end Cert.KernelIdeal.AG

end
-- ==== Proof.Launch.lean ====
/-
  The launch of the pairwise all-gather: from any memory with every semaphore counter at zero, the sixteen
  devices' kernels run to the end, and every final state has each device's argument array unchanged and its
  output array whole at the gathered contents — given, for every device, the proof of its body at the one grid
  point from the protocol's starting state.

  The protocol's ghost state is minted once for the machine: per device three cells (barrier, send, receive), each
  at round 0 with one duty token. A barrier token and a receive token go to the device's partner (who pays them: its
  signal, its copy); the send token stays (the device's own copy pays it). The cells' invariants are allocated for all
  devices under one update, since a device opens its partner's barrier and receive cells. At launch device `c` is
  owed one unit on its barrier cell and the copy's credit on its receive cell, both by its partner.
-/
import proofs.«900680_g7700000000000681_dist_ag_v7x_xyz2x2x4_x_m256_n256_bf16_1_alg».proof.Proof.Proto
import Idealize.ShloMosaic.Lib.Pipeline.Launch
import Idealize.ShloMosaic.Lib.Pipeline.Kit
import Idealize.ShloMosaic.Lib.Pipeline.Cells
import Idealize.ShloMosaic.Lib.Tactic

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
/-- The protocol's cells: three per device. -/
def agCells : Finset (GSem nD τ sig) := Finset.univ.map ⟨kcell, kcell_injective⟩

/-- A device's own cells' duty tokens as minted: one per cell, for round 0's one duty. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def agToks : Finset (GSem nD τ sig × ℕ × Unit) := Finset.univ.map ⟨tokOf, tokOf_injective⟩

def u₀ : UU :=
  (initOf (Pipeline.cells cfgs cellOf_inj) (Pipeline.launchToks cfgs cellOf_inj), initOf agCells agToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`. -/
def G (c : Dev nD) : sProp 𝕄 :=
  iprop((bigSep Finset.univ fun k : Fin 3 => roundState ER (agRd m ρ) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_ag : BI.own (ER (initOf agCells agToks)) ⊢ (|==> bigSep Finset.univ (G m ρ) : sProp 𝕄) := by
  have hX (Φ : GSem nD τ sig → sProp 𝕄) : bigSep agCells Φ = bigSep Finset.univ fun c : Dev nD => bigSep Finset.univ fun k : Fin 3 => Φ (kcell (c, k)) := by
    unfold agCells; rw [bigSep_map, bigSep_univ_prod]; rfl
  have hT : bigSep agToks (fun x => (dutyTok ER x.1 x.2.1 x.2.2 : sProp 𝕄)) = bigSep Finset.univ fun c : Dev nD => toks c := by
    unfold agToks; rw [bigSep_map, bigSep_univ_prod]
    exact bigSep_congr fun c _ => by unfold toks; rw [bigSep_fin3]; rfl
  iintro HX
  imod (Rounds.fund ER (agRd m ρ) agCells agToks) $$ HX with ⟨Hst, Hr, Hat, Htok⟩
  imodintro
  ihave Hst' := (Entails.of_eq (hX fun g => roundState ER (agRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (agRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (agRd m ρ) (kcell (c, k)) 0)
      ⊢ (|={Set.univ}=> bigSep Finset.univ fun k => iprop(∃ κ : ℕ, cellInv ER (agRd m ρ) κ (kcell (c, k))) : sProp 𝕄) from by
        rw [← bigSep_sep']
        exact (bigSep_mono fun k _ => (Rounds.body_intro ER (agRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant at its name, and round 0 reached on every cell: both persistent, so every device may read
    the records of its partner's cells. -/
def records (K : Dev nD × Fin 3 → ℕ) : sProp 𝕄 :=
  iprop((bigSep Finset.univ fun ck : Dev nD × Fin 3 => cellInv ER (agRd m ρ) (K ck) (kcell ck))
    ∗ bigSep Finset.univ fun ck : Dev nD × Fin 3 => reached ER (kcell ck) 0)

instance records_persistent (K : Dev nD × Fin 3 → ℕ) : BI.Persistent (records m ρ K) := by unfold records; infer_instance

theorem inv_at (K : Dev nD × Fin 3 → ℕ) (ck : Dev nD × Fin 3) :
    (bigSep Finset.univ fun ck : Dev nD × Fin 3 => (cellInv ER (agRd m ρ) (K ck) (kcell ck) : sProp 𝕄)) ⊢ cellInv ER (agRd m ρ) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties IT pays — its partner's barrier duty (its
    signal), its partner's receive duty and its own send duty (its copy). -/
def payToks (c : Dev nD) : sProp 𝕄 :=
  iprop(dutyTok ER (barCell (peer c)) 0 () ∗ dutyTok ER (recvCell (peer c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m ρ K ∗ linear c) ⊢ G' m ρ c := by
  unfold records linear payToks G' ghost invs
  iintro ⟨⟨#HI, #HR⟩, ⟨HaB, HaS, HaV⟩, HtB, HtV, HtS⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (peer c, 0)); iexact HI
    iapply (inv_at m ρ K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtB]; · iexact HtB
  isplitl [HtV]; · iexact HtV
  iexact HtS

omit [FloatOps F] in
/-- The tokens dealt across each pair: a device's barrier token and its receive token go to its partner. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv pair (fun c : Dev nD => (dutyTok ER (barCell c) 0 () : sProp 𝕄)),
    bigSep_univ_equiv pair (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (agRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 3 => iprop(∃ κ : ℕ, cellInv ER (agRd m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (agRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device `d` owes device `c`'s barrier cell: a unit if it is `c`'s partner. -/
theorem owed_bar (d c : Dev nD) : O₀ d (barCell c) () = if d = peer c then 1 else 0 := by
  unfold O₀
  rw [Pi.add_apply, Finsupp.add_apply, tallyAt_ne_cell (fun h => recv_ne_bar (congrArg Prod.snd h).symm),
    tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

omit [FloatOps F] in
/-- What it owes `c`'s receive cell: the copy's credit if it is `c`'s partner. -/
theorem owed_recv (d c : Dev nD) : O₀ d (recvCell c) () = if d = peer c then N else 0 := by
  unfold O₀
  rw [Pi.add_apply, Finsupp.add_apply, tallyAt_apply,
    tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c,
    Finset.sum_ite_eq' Finset.univ (peer c) fun _ => N, if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, -⟩
  iexact Hs

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁
  iintro ⟨HzS, HzV⟩
  isplitr; · iempintro
  isplitl [HzS HzV]
  · isplitl [HzS] <;> iassumption
  iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

/-- Each window's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of sixteen devices, for any float values, from any memory with zero counters: given each
    device's body at the one grid point, every weakly fair execution of @main — each pair handshaking on the barrier
    semaphore, then copying its rows across — terminates, and every final state has each device's two arrays at
    `finalA`. -/
theorem run_main (m : (ℓ : Loc nD τ sig) → Buf (Elt F) ℓ) (ρ : Dev nD → PrngReg)
    (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ag m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (m : (ℓ : Loc nD τ sig) → Buf (Elt F) ℓ) (ρ : Dev nD → PrngReg) (c : Dev nD) :
    finalA m ρ c (0 : Fin 2) = (s₀ m ρ).mem (win0_0.arr.view.loc (c : Thread nD τ)) :=
  (dats (F := F) m ρ 0 c).arrAt_in (0 : Fin 2) rfl _

omit [FloatOps F] in
/-- Writing a whole buffer through the unit-stride rectangle of its own sizes at zero offsets, however the zeros are
    spelt, leaves the payload: with the offsets substituted the rectangle is the whole shape. -/
theorem write_access_unit_zero {κ : Kind} (b : Ref sig κ) {off : Fin b.ty.shape.rank → Nat}
    (h : off = fun _ => 0) (inb : ∀ a, off a + b.ty.shape.size a ≤ b.ty.shape.size a) (f w : b.ty.Contents (Elt F)) :
    ((Memref.whole b).access (Rect.unit off b.ty.shape.size inb) : View sig κ _ _ _).write (Elt F) f w Finset.univ = w := by
  subst h; exact Memref.write_access_whole_univ (Elt F) b f w

/-- The output array after the run: written back whole at the one grid point, from the staging buffer the body left at
    the gathered contents. -/
theorem finalA_out (m : (ℓ : Loc nD τ sig) → Buf (Elt F) ℓ) (ρ : Dev nD → PrngReg) (c : Dev nD) :
    finalA m ρ c (1 : Fin 2) = outAt m ρ c := by
  unfold finalA
  have hN : cfg0.N = (t₀ : Fin cfg0.N).val + 1 := cfg0_N.trans rfl
  rw [hN, Dat.arrAt_succ, flush0_1, if_pos rfl]
  exact (write_access_unit_zero (F := F) main_v1 (funext fun a => Nat.zero_mul _) _ _ _).trans rfl

/-- The run at the claims' own spelling of the launch memory: every device's result array ends at the gathered
    contents and its argument array as launched. -/
theorem run_value (m : (ℓ : Loc nD τ sig) → Buf (Elt F) ℓ) (ρ : Dev nD → PrngReg)
    (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt m ρ c ∧ r.2.mem ((c.tc : Thread nD τ).loc main_arg0) = m ((c.tc : Thread nD τ).loc main_arg0)) :=
  (θ_run defs _ _).mono (fun _ h c => ⟨(h c 1).trans (finalA_out m ρ c), (h c 0).trans (finalA_x m ρ c)⟩) (run_main m ρ hbody)

/-- info: 'Cert.KernelIdeal.AG.run_value' depends on axioms: [propext, Classical.choice, Quot.sound] -/
#guard_msgs in #print axioms run_value

end Cert.KernelIdeal.AG

end
-- ==== Proof.KProto.lean ====
/-
  An all-gather over the mesh axis x of a 2×2×4 mesh, two devices at a time: device c and its partner
  (the device with the other x coordinate and the same y, z: c ± 8) each hold one 256-row block of a
  512×256 array. Each converts its block to bf16 into its own rows of its 512×256 output buffer, tells
  the partner it has entered the kernel (one unit on the partner's barrier semaphore), waits for the
  partner's unit, copies its rows into the same rows of the partner's output buffer, and waits until
  its copy has been read (send semaphore) and the partner's copy has landed (receive semaphore).

  This module fixes the protocol: per device three cells (barrier, send, receive), one round each,
  one duty a round. The barrier duty, paid by the partner's signal, hands over the partner's rows of
  the payer's output buffer (the destination of the owner's copy) and the fact that the payer's receive
  cell is at round 0. The send duty gives back the source rows; the receive duty hands the owner the
  partner's rows of its own buffer at their final contents.
-/
import proofs.«900680_g7700000000000681_dist_ag_v7x_xyz2x2x4_x_m256_n256_bf16_1_alg».proof.Proof.Gen.Kernel
import proofs.«900680_g7700000000000681_dist_ag_v7x_xyz2x2x4_x_m256_n256_bf16_1_alg».proof.Proof.Gen.Kernel.Skeleton
import proofs.«900680_g7700000000000681_dist_ag_v7x_xyz2x2x4_x_m256_n256_bf16_1_alg».proof.Proof.Gen.Kernel.Launch
import proofs.«900680_g7700000000000681_dist_ag_v7x_xyz2x2x4_x_m256_n256_bf16_1_alg».proof.Proof.Gen.Kernel.Points
import Idealize.ShloMosaic.Lib.Pipeline.Launch
import Idealize.ShloMosaic.Lib.Pipeline.Kit
import Idealize.ShloMosaic.Lib.Tactic
import Idealize.ShloMosaic.Lib.ValueIdx

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (one duty a round) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The partner -/

/-- The device with the other x coordinate: device numbers are 8x + 4y + z. -/
def peer (c : Dev nD) : Dev nD := ⟨(c.val + 8) % 16, Nat.mod_lt _ (by decide)⟩
/-- The device of the pair with x = 0, and the one with x = 1. -/
def lo (c : Dev nD) : Dev nD := ⟨c.val % 8, Nat.lt_of_lt_of_le (Nat.mod_lt _ (by decide)) (by decide)⟩
def hi (c : Dev nD) : Dev nD := ⟨c.val % 8 + 8, by have := Nat.mod_lt c.val (show 0 < 8 by decide); show c.val % 8 + 8 < 16; omega⟩

theorem peer_peer (c : Dev nD) : peer (peer c) = c := by revert c; decide
theorem peer_ne (c : Dev nD) : peer c ≠ c := by revert c; decide
theorem lo_peer (c : Dev nD) : lo (peer c) = lo c := by revert c; decide
theorem hi_peer (c : Dev nD) : hi (peer c) = hi c := by revert c; decide
theorem lo_or_hi (c : Dev nD) : (c.val / 8 = 0 ∧ lo c = c ∧ hi c = peer c) ∨ (c.val / 8 = 1 ∧ hi c = c ∧ lo c = peer c) := by revert c; decide

/-- The kernel's two device chains both name the partner. -/
theorem dev1_eq (c : Dev nD) : (⟨k0_dev1 c, k0_dev1_lt c⟩ : Dev nD) = peer c :=
  Fin.ext ((k0_dev1_eq c).trans (by revert c; decide))
theorem dev2_eq (c : Dev nD) : (⟨k0_dev2 c, k0_dev2_lt c⟩ : Dev nD) = peer c :=
  Fin.ext ((k0_dev2_eq c).trans (by revert c; decide))

def pair : Dev nD ≃ Dev nD := ⟨peer, peer, peer_peer, peer_peer⟩

/-! ## The memrefs and cells -/

abbrev xM : Memref sig .tc .vmem S256x256 .f32 := Memref.whole cc0_stg0_0
abbrev oM : Memref sig .tc .vmem S512x256 .bf16 := Memref.whole cc0_stg1_0

/-- Device `d`'s own rows of a 512×256 output buffer: rows 256·x to 256·x + 255. -/
abbrev rowsR (d : Dev nD) : Rect S512x256 := Rect.unit (s := S512x256) (k0_off2 d) S256x256.size (k0_off2_inb d)
/-- The same rows as the vector store names them. -/
abbrev rowsS (d : Dev nD) : Rect S512x256 := Rect.unit (s := S512x256) (k0_off1 d) S256x256.size (k0_off1_inb d)
/-- The output buffer cut to device `d`'s rows: the source of `d`'s copy, and on the partner its destination. -/
abbrev half (d : Dev nD) : Memref sig .tc .vmem S256x256 .bf16 := oM.slice (rowsR d) (fun _ => rfl)

abbrev barS : Sem sig := (SemArray.scalar (sig.barrier 0 rfl) : Sems sig S_).sem
abbrev sendS : DmaSems sig S_ := cc0_scratch0
abbrev recvS : DmaSems sig S_ := cc0_scratch1

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores, as the launch indexes them: send, receive; -/
abbrev osem : Fin 2 → SemLoc sig := fun | 0 => .dma sendS.sem | 1 => .dma recvS.sem
/-- all three of the protocol's: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit of one copy of 256 rows. -/
abbrev N : ℕ := (half (0 : Dev nD)).view.dmaCredit
theorem N_pos : 0 < N := View.dmaCredit_pos _ (by decide)
theorem N_eq (d : Dev nD) : (half d).view.dmaCredit = N := rfl

/-! ## Contents -/

/-- Device `c`'s block of the argument, as staged. -/
def xstg (c : Dev nD) : (cc0_stg0_0 : Ref sig .tc).ty.Contents (Elt F) :=
  (win0_0.blk (0 : Fin 1)).view.read (Elt F) ((s₀ m ρ).mem ((c : Thread nD τ).loc main_arg0))

/-- What device `c` stores: its block converted. -/
def conv (c : Dev nD) : FVec F S256x256 .bf16 := k0_pay1 (xstg m ρ c)

/-- The output buffer's final contents on `c` (and on its partner): rows 0–255 are the converted block of
    the pair's x = 0 device, rows 256–511 that of its x = 1 device. -/
def outAt (c : Dev nD) : (cc0_stg1_0 : Ref sig .tc).ty.Contents (Elt F) := fun i =>
  if h : (i 0).val < 256 then conv m ρ (lo c) (ValueIdx.ix2 (⟨(i 0).val, h⟩ : Fin 256) (i 1))
  else conv m ρ (hi c) (ValueIdx.ix2 (⟨(i 0).val - 256, by have := (i 0).isLt; change (i 0).val < 512 at this; omega⟩ : Fin 256) (i 1))

theorem outAt_peer (c : Dev nD) : outAt m ρ (peer c) = outAt m ρ c := by
  unfold outAt; rw [lo_peer, hi_peer]

/-- Device `t`'s output buffer at device `d`'s rows, holding `f` there. -/
def hPts (t d : Dev nD) (f : Buf (Elt F) ((half d).view.loc (t : Thread nD τ))) : sProp 𝕄 :=
  (half d).view.loc (t : Thread nD τ) ↦[(half d).view.set]{fullShare} f
def xPts (c : Dev nD) : sProp 𝕄 :=
  (xM : Memref sig .tc .vmem S256x256 .f32).view.loc (c : Thread nD τ) ↦[(xM : Memref sig .tc .vmem S256x256 .f32).view.set]{fullShare} xstg m ρ c

omit [FloatOps F] in
instance hPts_storable (t d : Dev nD) (f) : BI.Storable (upEmb : UEmb _ 𝕄) (hPts (F := F) t d f) := by unfold hPts; infer_instance

/-! ## The schedule -/

/-- What the partner's signal hands `c`: `c`'s rows of the partner's buffer, and that the partner's receive cell is
    at round 0 (what the copy into it needs). -/
def barPay (c : Dev nD) : sProp 𝕄 := iprop((∃ f, hPts (peer c) c f) ∗ reached ER (recvCell (peer c)) 0)
/-- The source rows back, at their final contents. -/
def sendPay (c : Dev nD) : sProp 𝕄 := hPts c c (outAt m ρ c)
/-- The partner's rows of `c`'s own buffer, at their final contents. -/
def recvPay (c : Dev nD) : sProp 𝕄 := hPts c (peer c) (outAt m ρ c)

abbrev IsCell (g : GSem nD τ sig) : Prop := g.1.2 = .tc ∧ (g.2 = .reg barS ∨ g.2 = .dma sendS.sem ∨ g.2 = .dma recvS.sem)

/-- One round, round 0, one duty per cell: a barrier cell's of one unit, a send or receive cell's of the copy's credit. -/
def agRd : Rounds.Schedule (GSem nD τ sig) Unit 𝕄 where
  duties g r := if r = 0 ∧ IsCell g then {()} else ∅
  unitless _ := False
  amount g _ _ := if g.2 = .reg barS then 1 else N
  payload g _ _ :=
    if g.2 = .reg barS then barPay g.1.1
    else if g.2 = .dma recvS.sem then recvPay m ρ g.1.1
    else if g.2 = .dma sendS.sem then sendPay m ρ g.1.1
    else iprop(emp)
  amount_pos g _ _ _ := by
    by_cases h : g.2 = .reg barS
    · rw [if_pos h]; exact Nat.one_pos
    · rw [if_neg h]; exact N_pos

instance agRd_payload_storable (g : GSem nD τ sig) (r : ℕ) (d : Unit) :
    BI.Storable (upEmb : UEmb _ 𝕄) ((agRd (F := F) m ρ).payload g r d) := by
  show BI.Storable upEmb (if g.2 = .reg barS then barPay g.1.1 else if g.2 = .dma recvS.sem then recvPay m ρ g.1.1
    else if g.2 = .dma sendS.sem then sendPay m ρ g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (agRd (F := F) m ρ).duties (barCell c) 0 = {()} := by dsimp only [agRd]; exact if_pos ⟨rfl, rfl, .inl rfl⟩
theorem duties_send : (agRd (F := F) m ρ).duties (sendCell c) 0 = {()} := by dsimp only [agRd]; exact if_pos ⟨rfl, rfl, .inr (.inl rfl)⟩
theorem duties_recv : (agRd (F := F) m ρ).duties (recvCell c) 0 = {()} := by dsimp only [agRd]; exact if_pos ⟨rfl, rfl, .inr (.inr rfl)⟩
theorem duties_later (g : GSem nD τ sig) : ∀ r, 1 ≤ r → (agRd (F := F) m ρ).duties g r = ∅ :=
  fun r hr => by dsimp only [agRd]; rw [if_neg fun h => by omega]

theorem amount_bar (d : Unit) : (agRd (F := F) m ρ).amount (barCell c) 0 d = 1 := by dsimp only [agRd]; exact if_pos rfl
theorem amount_send (d : Unit) : (agRd (F := F) m ρ).amount (sendCell c) 0 d = N := by dsimp only [agRd]; exact if_neg send_ne_bar
theorem amount_recv (d : Unit) : (agRd (F := F) m ρ).amount (recvCell c) 0 d = N := by dsimp only [agRd]; exact if_neg recv_ne_bar

theorem expect_bar : (agRd (F := F) m ρ).expect (barCell c) 0 = 1 := by
  unfold Schedule.expect Schedule.amountOf; rw [duties_bar, Finset.sum_singleton, amount_bar]
theorem expect_send : (agRd (F := F) m ρ).expect (sendCell c) 0 = N := by
  unfold Schedule.expect Schedule.amountOf; rw [duties_send, Finset.sum_singleton, amount_send]
theorem expect_recv : (agRd (F := F) m ρ).expect (recvCell c) 0 = N := by
  unfold Schedule.expect Schedule.amountOf; rw [duties_recv, Finset.sum_singleton, amount_recv]

theorem payload_bar (d : Unit) : (agRd (F := F) m ρ).payload (barCell c) 0 d = barPay c := by dsimp only [agRd]; rw [if_pos rfl]
theorem payload_send (d : Unit) : (agRd (F := F) m ρ).payload (sendCell c) 0 d = sendPay m ρ c := by
  dsimp only [agRd]; rw [if_neg send_ne_bar, if_neg send_ne_recv, if_pos rfl]
theorem payload_recv (d : Unit) : (agRd (F := F) m ρ).payload (recvCell c) 0 d = recvPay m ρ c := by
  dsimp only [agRd]; rw [if_neg recv_ne_bar, if_pos rfl]

theorem rest_bar : bigSep ((agRd (F := F) m ρ).duties (barCell c) 0 \ ∅) (fun d => (agRd (F := F) m ρ).payload (barCell c) 0 d) = barPay c := by
  rw [Finset.sdiff_empty, duties_bar, bigSep_singleton, payload_bar]
theorem rest_send : bigSep ((agRd (F := F) m ρ).duties (sendCell c) 0 \ ∅) (fun d => (agRd (F := F) m ρ).payload (sendCell c) 0 d) = sendPay m ρ c := by
  rw [Finset.sdiff_empty, duties_send, bigSep_singleton, payload_send]
theorem rest_recv : bigSep ((agRd (F := F) m ρ).duties (recvCell c) 0 \ ∅) (fun d => (agRd (F := F) m ρ).payload (recvCell c) 0 d) = recvPay m ρ c := by
  rw [Finset.sdiff_empty, duties_recv, bigSep_singleton, payload_recv]

end Sched

/-! ## What each device owes at launch; the levels -/

/-- Device `c` owes its partner's receive cell the copy's credit and its partner's barrier cell one unit (the
    signal, first, peels the last summand). -/
def O₀ (c : Dev nD) : CellTallies nD τ sig Unit := tallyAt (recvCell (peer c)) () N + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its partner's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens: its own three, its partner's barrier cell (its signal) and its
    partner's receive cell (its copy). -/
def invs (K : Dev nD × Fin 3 → ℕ) (c : Dev nD) : sProp 𝕄 :=
  iprop(cellInv ER (agRd m ρ) (K (c, 0)) (barCell c) ∗ cellInv ER (agRd m ρ) (K (c, 1)) (sendCell c) ∗ cellInv ER (agRd m ρ) (K (c, 2)) (recvCell c)
    ∗ cellInv ER (agRd m ρ) (K (peer c, 0)) (barCell (peer c)) ∗ cellInv ER (agRd m ρ) (K (peer c, 2)) (recvCell (peer c)))

instance invs_persistent (K : Dev nD × Fin 3 → ℕ) (c : Dev nD) : BI.Persistent (invs m ρ K c) := by unfold invs; infer_instance

/-- The protocol's ghost state device `c` starts from: the invariants; its positions at round 0 of its three cells;
    round 0 reached on the cells it pays and on its own send and receive cells; the three duty tokens it pays with. -/
def ghost (K : Dev nD × Fin 3 → ℕ) (c : Dev nD) : sProp 𝕄 :=
  iprop(invs m ρ K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- What device `c`'s body starts from: that at some names, its two credit tokens and the level facts. -/
def start (c : Dev nD) : sProp 𝕄 :=
  iprop((∃ K, ghost m ρ K c) ∗ cred (tallyAt (barCell c) () 1) ∗ cred (tallyAt (recvCell c) () N) ∗ levAts L lv)

def Φ₀ (c : Dev nD) : sProp 𝕄 := start m ρ c
/-- After the point: the two own cells at zero, closed (the barrier cell is the runtime's: nothing to hand back). -/
def Φ₁ (c : Dev nD) : sProp 𝕄 := iprop(semVal (sendCell c) 0 ∗ semVal (recvCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer whole at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body at the one grid point starts from, and what it leaves. -/
def bodyPre (K : Dev nD × Fin 3 → ℕ) (c : Dev nD) : sProp 𝕄 :=
  iprop((ghost m ρ K c ∗ cred (tallyAt (barCell c) () 1) ∗ cred (tallyAt (recvCell c) () N) ∗ levAts L lv)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

end Cert.Kernel.AG

end
-- ==== Proof.KGeom.lean ====
/-
  The geometry of the two halves of a device's 512×256 output buffer, and what the store and the landing leave
  in them: device c's own rows and its partner's rows are complementary; the vector store of the converted
  block leaves the final contents in c's rows; a copy of c's rows at their final contents leaves the final
  contents in the same rows of the partner's buffer (the pair's two buffers end equal).
-/
import proofs.«900680_g7700000000000681_dist_ag_v7x_xyz2x2x4_x_m256_n256_bf16_1_alg».proof.Proof.KProto
import Idealize.ShloMosaic.Lib.Pipeline.Value

noncomputable section

namespace Cert.Kernel.AG

open Cert.Kernel Cert.Kernel.Gen
open Idealize.ShloMosaic
open Idealize.ShloMosaic.TcCoe

variable {F : FTy → Type} [FloatOps F]
variable (m : (ℓ : Loc nD τ sig) → Buf (Elt F) ℓ) (ρ : Dev nD → PrngReg)

/-! ## Rows -/

/-- The partner has the other x coordinate. -/
theorem peer_div (c : Dev nD) : (peer c).val / 8 = 1 - c.val / 8 := by revert c; decide
theorem div_le (c : Dev nD) : c.val / 8 ≤ 1 := by revert c; decide

/-- Device d's rows are the rows 256·x to 256·x + 255, x its first mesh coordinate: membership by the row alone. -/
theorem mem_half (d : Dev nD) (i : (cc0_stg1_0 : Ref sig .tc).ty.Idx) :
    i ∈ ((half d).view.set : Finset (cc0_stg1_0 : Ref sig .tc).ty.Idx)
      ↔ 256 * (d.val / 8) ≤ (i 0).val ∧ (i 0).val < 256 * (d.val / 8) + 256 := by
  have h1 : (i 1).val < 256 := (i 1).isLt
  rw [show ((half d).view.set : Finset (cc0_stg1_0 : Ref sig .tc).ty.Idx) = (rowsR d).set from
    View.set_slice_whole cc0_stg1_0 (rowsR d), Rect.mem_set_unit, k0_off2_eq]
  constructor
  · intro h; exact h 0
  · intro h a
    match a with
    | ⟨0, _⟩ => exact h
    | ⟨1, _⟩ => exact ⟨Nat.zero_le _, by show (i 1).val < 0 + 256; omega⟩

/-- The partner's rows are exactly the rows that are not c's. -/
theorem rows_compl (c : Dev nD) :
    ((half (peer c)).view.set : Finset (cc0_stg1_0 : Ref sig .tc).ty.Idx) = Finset.univ \ (half c).view.set := by
  ext i
  have h0 : (i 0).val < 512 := (i 0).isLt
  have hp := peer_div c
  have hc := div_le c
  rw [Finset.mem_sdiff, mem_half, mem_half, hp]
  constructor
  · intro h; exact ⟨Finset.mem_univ _, by omega⟩
  · intro h; have := h.2; omega

/-- A store through a unit-stride rectangle at the offsets of c's rows, however they are spelt, goes through c's rows. -/
theorem set_access_rows (c : Dev nD) (off : Fin S512x256.rank → Nat) (inb : ∀ a, off a + S256x256.size a ≤ S512x256.size a)
    (h : off = k0_off2 c) :
    (((oM : Memref sig .tc .vmem S512x256 .bf16).access (Rect.unit (s := S512x256) off S256x256.size inb) : View sig .tc .vmem _ .bf16).set
        : Finset (cc0_stg1_0 : Ref sig .tc).ty.Idx) = (half c).view.set := by
  subst h; rfl

/-- The vector store goes through c's rows. -/
theorem store_set (c : Dev nD) :
    (((oM : Memref sig .tc .vmem S512x256 .bf16).access (rowsS c) : View sig .tc .vmem _ .bf16).set : Finset (cc0_stg1_0 : Ref sig .tc).ty.Idx)
      = (half c).view.set :=
  set_access_rows c _ _ ((k0_off1_eq c).trans (k0_off2_eq c).symm)

/-- Where an element of d's rows sits in the buffer: 256·x rows down, the same column. -/
theorem emb_half (d : Dev nD) (y : S256x256.Idx) :
    (((half d).view.emb y) 0).val = 256 * (d.val / 8) + (y 0).val ∧ (((half d).view.emb y) 1).val = (y 1).val := by
  have e0 : (((half d).view.emb y) 0).val = k0_off2 d 0 + 1 * (y 0).val := rfl
  have e1 : (((half d).view.emb y) 1).val = k0_off2 d 1 + 1 * (y 1).val := rfl
  rw [e0, e1, k0_off2_eq]
  exact ⟨by show 256 * (d.val / 8) + 1 * (y 0).val = _; omega, by show 0 + 1 * (y 1).val = _; omega⟩

/-- The final contents at an element of c's rows: c's converted block there. -/
theorem outAt_emb (c : Dev nD) (y : S256x256.Idx) :
    outAt m ρ c ((half c).view.emb y) = conv m ρ c y := by
  obtain ⟨e0, e1⟩ := emb_half c y
  have hy0 : (y 0).val < 256 := (y 0).isLt
  unfold outAt
  rcases lo_or_hi c with ⟨hx, hl, -⟩ | ⟨hx, hh, -⟩
  · rw [hx] at e0
    rw [dif_pos (by omega), hl]
    congr 1
    funext a
    match a with
    | ⟨0, _⟩ => exact Fin.ext (by show (((half c).view.emb y) 0).val = (y 0).val; omega)
    | ⟨1, _⟩ => exact Fin.ext e1
  · rw [hx] at e0
    rw [dif_neg (by omega), hh]
    congr 1
    funext a
    match a with
    | ⟨0, _⟩ => exact Fin.ext (by show (((half c).view.emb y) 0).val - 256 = (y 0).val; omega)
    | ⟨1, _⟩ => exact Fin.ext e1

/-! ## Writing through a view -/

/-- Through any view: writing back, over the whole view, what the view reads of f gives f on the view's elements. -/
theorem write_read_self {sig : RefSig} {κ : Kind} {sp : Space} {S : Shape} {e : EltTy} {Val : EltTy → Type}
    (v : View sig κ sp S e) (fd f : v.ty.Contents Val) :
    ∀ i ∈ v.set, v.write Val fd (v.read Val f) Finset.univ i = f i := by
  intro i hi
  obtain ⟨y, rfl⟩ := View.exists_emb_of_mem_set v hi
  rw [View.write_emb_of_mem _ _ (Finset.mem_univ y), View.read_apply, cast_cast, cast_eq]

/-- A store of c's converted block through a unit-stride rectangle at the offsets of c's rows leaves c's rows at
    their final contents. -/
theorem write_access_rows (c : Dev nD) (off : Fin S512x256.rank → Nat) (inb : ∀ a, off a + S256x256.size a ≤ S512x256.size a)
    (h : off = k0_off2 c) (f0 : (cc0_stg1_0 : Ref sig .tc).ty.Contents (Elt F)) :
    ∀ i ∈ ((half c).view.set : Finset (cc0_stg1_0 : Ref sig .tc).ty.Idx),
      ((oM : Memref sig .tc .vmem S512x256 .bf16).access (Rect.unit (s := S512x256) off S256x256.size inb) : View sig .tc .vmem _ .bf16).write
        (Elt F) f0 (conv m ρ c) Finset.univ i = outAt m ρ c i := by
  subst h
  intro i hi
  obtain ⟨y, rfl⟩ := View.exists_emb_of_mem_set (half c).view hi
  rw [outAt_emb]
  exact View.write_emb_of_mem (v := (half c).view) f0 (conv m ρ c) (Finset.mem_univ y)

/-- After the store, c's rows hold their final contents. -/
theorem store_agree (c : Dev nD) (f0 : (cc0_stg1_0 : Ref sig .tc).ty.Contents (Elt F)) :
    ∀ i ∈ ((half c).view.set : Finset (cc0_stg1_0 : Ref sig .tc).ty.Idx),
      ((oM : Memref sig .tc .vmem S512x256 .bf16).access (rowsS c) : View sig .tc .vmem _ .bf16).write (Elt F) f0 (conv m ρ c) Finset.univ i = outAt m ρ c i :=
  write_access_rows m ρ c _ _ ((k0_off1_eq c).trans (k0_off2_eq c).symm) f0

/-- A copy of c's rows at their final contents leaves the partner's final contents in the same rows there. -/
theorem landed_agree (c : Dev nD) (fd : (cc0_stg1_0 : Ref sig .tc).ty.Contents (Elt F)) :
    ∀ i ∈ ((half c).view.set : Finset (cc0_stg1_0 : Ref sig .tc).ty.Idx),
      (half c).view.write (Elt F) fd ((half c).view.read (Elt F) (outAt m ρ c)) Finset.univ i = outAt m ρ (peer c) i := by
  intro i hi
  rw [outAt_peer]
  exact write_read_self (half c).view fd (outAt m ρ c) i hi

/-- info: 'Cert.Kernel.AG.rows_compl' depends on axioms: [propext, Classical.choice, Quot.sound] -/
#guard_msgs in #print axioms rows_compl
/-- info: 'Cert.Kernel.AG.store_agree' depends on axioms: [propext, Classical.choice, Quot.sound] -/
#guard_msgs in #print axioms store_agree
/-- info: 'Cert.Kernel.AG.landed_agree' depends on axioms: [propext, Classical.choice, Quot.sound] -/
#guard_msgs in #print axioms landed_agree

end Cert.Kernel.AG

end
-- ==== Proof.KBody.lean ====
/-
  One device's body, stepped from the protocol's ghost state: the signal pays the partner's barrier duty with the
  partner's rows of this device's buffer; the store leaves this device's rows at their final contents; the barrier
  wait brings this device's rows of the partner's buffer; the copy pays its own send duty (the source rows back) and
  the partner's receive duty (the partner's copy of these rows, final); the two waits bring both halves back, and
  they rejoin to the whole buffer at its final contents.
-/
import proofs.«900680_g7700000000000681_dist_ag_v7x_xyz2x2x4_x_m256_n256_bf16_1_alg».proof.Proof.KProto
import proofs.«900680_g7700000000000681_dist_ag_v7x_xyz2x2x4_x_m256_n256_bf16_1_alg».proof.Proof.KGeom

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body
variable (K : Dev nD × Fin 3 → ℕ)

/-- The whole output buffer is its own rows and the partner's rows. -/
theorem out_split (c : Dev nD) (g : Buf (Elt F) ((c : Thread nD τ).loc cc0_stg1_0)) :
    ((c : Thread nD τ).loc cc0_stg1_0 ↦{fullShare} g : sProp 𝕄) ⊣⊢ iprop(hPts c c g ∗ hPts c (peer c) g) := by
  unfold hPts
  rw [rows_compl]
  exact BI.Region.is_split_subset (Finset.subset_univ _)

abbrev r0 : Rect S256x256 := Rect.unit (s := S256x256) ![0, 0] S256x256.size inb_S256x256_S256x256_0_0

omit [FloatOps F] in
theorem hz : (![0, 0] : Fin 2 → Nat) = fun _ => 0 := funext fun a => by fin_cases a <;> rfl
omit [FloatOps F] in
theorem read_x (f : (cc0_stg0_0 : Ref sig .tc).ty.Contents (Elt F)) : (xM : Memref sig .tc .vmem S256x256 .f32).view.readAt (Elt F) r0.toLoadRect f = f :=
  Memref.readAt_unit_zero (Elt F) cc0_stg0_0 hz _ f

omit [FloatOps F] in
theorem xPts_eq [FloatOps F] (c : Dev nD) : xPts m ρ c = (((c : Thread nD τ).loc cc0_stg0_0) ↦{fullShare} xstg m ρ c : sProp 𝕄) := by
  unfold xPts; rw [View.set_whole]

theorem xPts_eq' (c : Dev nD) :
    ((xM : Memref sig .tc .vmem S256x256 .f32).view.loc (c : Thread nD τ) ↦[(xM : Memref sig .tc .vmem S256x256 .f32).view.set]{fullShare} xstg m ρ c : sProp 𝕄)
      = (((c : Thread nD τ).loc cc0_stg0_0) ↦{fullShare} xstg m ρ c : sProp 𝕄) := xPts_eq m ρ c

/-- The partner's barrier duty hands over the partner's rows of this device's buffer and that this device's receive
    cell is at round 0. -/
theorem payload_bar_peer (c : Dev nD) : (agRd m ρ).payload (barCell (peer c)) 0 () =
    iprop((∃ f, ((half (peer c)).view.loc (c : Thread nD τ) ↦[(half (peer c)).view.set]{fullShare} f)) ∗ reached ER (recvCell c) 0) := by
  rw [payload_bar]; unfold barPay hPts; rw [peer_peer]

/-- The copy of this device's rows into the same rows of the partner's buffer, addressed to `n = peer c`: it pays this
    device's send duty with the source rows and the partner's receive duty with the rows it lands. -/
theorem wp_send_pair (c n : Dev nD) (hn : n = peer c)
    {hsc : (half c : Memref sig (Dev.tc n : Thread nD τ).2.kind .vmem S256x256 .bf16).view.ref.isScScratch = false}
    {hsrc : (half c : Memref sig .tc .vmem S256x256 .bf16).view.WordExact} {hdst : (half c : Memref sig .tc .vmem S256x256 .bf16).view.WordExact}
    {hsem : DmaTarget.Typed .vmem (.dma recvS.sem) (.remote (Dev.tc n : Thread nD τ) (half c : Memref sig .tc .vmem S256x256 .bf16) (.dma sendS.sem) hsc)}
    {α : Type} {Q : α → sProp 𝕄} {k : PUnit → Prog (TpuEff nD τ sig (Elt F) Λ₀ .tc) α}
    (fn : Buf (Elt F) ((half c).view.loc (peer c : Thread nD τ))) (W : Waits sig Unit) :
    iprop(cellInv ER (agRd m ρ) (K (c, 1)) (sendCell c) ∗ cellInv ER (agRd m ρ) (K (peer c, 2)) (recvCell (peer c))
        ∗ hPts c c (outAt m ρ c) ∗ hPts (peer c) c fn
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (half c) (.remote (Dev.tc n : Thread nD τ) (half c) (.dma sendS.sem) hsc) (.dma recvS.sem) hsrc hdst hsem) k) Q) := by
  subst hn
  unfold hPts
  exact Rounds.wp_send_pointsTo 𝒱₀ ER (agRd m ρ) (c : Thread nD τ) none (κ₁ := K (c, 1)) (κ₂ := K (peer c, 2))
    (r₁ := 0) (r₂ := 0) (d₁ := ()) (d₂ := ()) (fd := fn)
    (by rw [duties_send]; exact Finset.mem_singleton_self _) (by rw [duties_recv]; exact Finset.mem_singleton_self _)
    () () N rfl (amount_send m ρ c ()) (amount_recv m ρ (peer c) ()) 0 (by rw [zero_add]) (W := W)
    (by rw [payload_send]; unfold sendPay hPts; exact BI.Entails.refl _)
    (by rw [payload_recv]; unfold recvPay hPts; rw [peer_peer]; exact Entails.of_eq (BI.Region.is_congr (landed_agree m ρ c fn)))

attribute [local sl_rounds] duties_bar duties_send duties_recv amount_bar amount_send amount_recv expect_bar expect_send expect_recv
  payload_bar_peer payload_send payload_recv
attribute [local sl_canon] dev1_eq dev2_eq

set_option maxHeartbeats 800000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) cc0_scratch0 cc0_scratch1) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs
  iintro ⟨⟨⟨⟨⟨#HIbar, #HIsnd, #HIrcv, #HIbarP, #HIrcvP⟩, HatB, HatS, HatV, #HrBP, #HrVP, #HrS, #HrV, HtBP, HtVP, HtS⟩, HcB, HcV, #Hlev⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀
  ihave Hh := (out_split c g1).1 $$ Hout
  unfold hPts
  icases Hh with ⟨Hmine, Htheirs⟩
  simp only [dev1_eq c, dev2_eq c]
  -- the signal to the partner's barrier: its one duty, with the partner's rows of this buffer
  iapply (Rounds.wp_signal 𝒱₀ ER (agRd m ρ) (c : Thread nD τ) none (dst := (peer c : Thread nD τ)) (κ := K (peer c, 0))
      (d := ()) (by rw [duties_bar]; exact Finset.mem_singleton_self _) ((amount_bar m ρ (peer c) ()).trans (by decide)) () (tallyAt (recvCell (peer c)) () N) rfl)
    $$ [HO HtBP Htheirs]
  · isplitr; · iexact HIbarP
    isplitl [HO]; · iexact HO
    isplitl [HtBP]; · iexact HtBP
    isplitl [Htheirs]
    · rw [payload_bar_peer]
      isplitl [Htheirs]; · iexists g1; iexact Htheirs
      iexact HrV
    · iexact HrBP
  iintro HO
  ihave Hx := (Entails.of_eq (xPts_eq m ρ c).symm) $$ Hx
  unfold xPts
  sl_exec
  -- the load of this device's rows of the output buffer (their old contents are not used)
  iapply (wp_load_rect 𝒱₀ (c : Thread nD τ) none Set.univ (m := oM) (r := rowsS c) (by rw [store_set])) $$ Hmine; iintro Hmine
  rw [read_x]
  -- the store: this device's rows now hold their final contents
  iapply (wp_store 𝒱₀ (c : Thread nD τ) none Set.univ (m := oM) (r := rowsS c) (Mk := Finset.univ) (by rw [View.setOn_univ, store_set])) $$ Hmine; iintro Hmine
  have hstore := store_agree m ρ c g1
  unfold conv at hstore
  ihave Hmine := (Entails.of_eq (BI.Region.is_congr hstore)) $$ Hmine
  -- the wait on its own barrier, owing the partner's receive credit: this device's rows of the partner's buffer come with it
  iapply (Rounds.wp_wait_rest_token 𝒱₀ ER (agRd m ρ) (c : Thread nD τ) none (κ := K (c, 0))
      (wpE_semWait_eq 𝒱₀ (c : Thread nD τ) none Set.univ) (Set.mem_univ _) () (O := tallyAt (recvCell (peer c)) () N) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  unfold barPay
  icases Hp with ⟨⟨%fn, HdstP⟩, #HrVP'⟩
  -- the copy to the partner
  iapply (wp_send_pair m ρ K c _ (dev2_eq c) fn (insert (SemLoc.reg barS, ()) W)) $$ [Hmine HdstP HO HtS HtVP]
  · isplitr; · iexact HIsnd
    isplitr; · iexact HIrcvP
    isplitl [Hmine]; · unfold hPts; iexact Hmine
    isplitl [HdstP]; · iexact HdstP
    isplitl [HO]; · iexact HO
    isplitl [HtS]; · iexact HtS
    isplitr; · iexact HrS
    isplitl [HtVP]; · iexact HtVP
    iexact HrVP
  iintro ⟨HcS, HO⟩
  -- the wait on its send cell: the source rows back
  iapply (Rounds.wp_wait_rest_token 𝒱₀ ER (agRd m ρ) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      (by rw [Nat.zero_add, expect_send])) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave Hmine := (Entails.of_eq (rest_send m ρ c)) $$ Hpay
  -- the wait on its receive cell: the partner's rows of its own buffer, final
  iapply (Rounds.wp_wait_rest_token 𝒱₀ ER (agRd m ρ) (c : Thread nD τ) none (κ := K (c, 2))
      (wpE_waitDma2_eq 𝒱₀ (c : Thread nD τ) none Set.univ) (Set.mem_univ _) () (O := 0)
      (W := insert (SemLoc.dma sendS.sem, ()) (insert (SemLoc.reg barS, ()) W)) (R := 0) (m := 0) (T := ∅)
      (by rw [Nat.zero_add, expect_recv])) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Htheirs := (Entails.of_eq (rest_recv m ρ c)) $$ Hpay
  -- the two own cells close: their counters at zero are the device's again
  imod (Rounds.cell_close ER (agRd m ρ) (Set.mem_univ (K (c, 1))) (fun h => h) (R := 0 + 1) (duties_later m ρ (sendCell c))) $$ [HatS] with HzS
  · isplitr; · iexact HIsnd
    iexact HatS
  imod (Rounds.cell_close ER (agRd m ρ) (Set.mem_univ (K (c, 2))) (fun h => h) (R := 0 + 1) (duties_later m ρ (recvCell c))) $$ [HatV] with HzV
  · isplitr; · iexact HIrcv
    iexact HatV
  -- the two halves, both final, are the whole buffer
  ihave Hout := (out_split c (outAt m ρ c)).2 $$ [Hmine Htheirs]
  · unfold sendPay recvPay; isplitl [Hmine] <;> iassumption
  ihave Hx := (Entails.of_eq (xPts_eq' m ρ c)) $$ Hx
  rw [wp_ret]; imodintro
  iapply Hk
  unfold bodyPost Φ₁ Dat.owesAt Pipeline.owesWithin
  rw [show (dats m ρ 0 c).owed t₀.succ = 0 from rfl]
  isplitl [HzS HzV]
  · isplitl [HzS]; · iexact HzS
    iexact HzV
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
/-- The body's precondition as the launch states it. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The body obligation on device `c`, at the one grid point. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _) cc0_scratch0 cc0_scratch1)
    (fun _ => bodyPost m ρ c)
  unfold bodyPre' Φ₀ start
  iintro ⟨⟨⟨%K, Hg⟩, Hrest⟩, Ho, Hx, Hout⟩
  iapply (sound_body m ρ K c fun _ => bodyPost m ρ c)
  unfold bodyPre
  isplitr []
  · isplitl [Hg Hrest]
    · isplitl [Hg]; · iexact Hg
      iexact Hrest
    isplitl [Ho]; · iexact Ho
    isplitl [Hx] <;> iassumption
  · iintro H; iexact H

/-- info: 'Cert.Kernel.AG.body_obligation' depends on axioms: [propext, Classical.choice, Quot.sound] -/
#guard_msgs in #print axioms body_obligation

end Body

end Cert.Kernel.AG

end
-- ==== Proof.KLaunch.lean ====
/-
  The launch of the pairwise all-gather: from any memory with every semaphore counter at zero, the sixteen
  devices' kernels run to the end, and every final state has each device's argument array unchanged and its
  output array whole at the gathered contents — given, for every device, the proof of its body at the one grid
  point from the protocol's starting state.

  The protocol's ghost state is minted once for the machine: per device three cells (barrier, send, receive), each
  at round 0 with one duty token. A barrier token and a receive token go to the device's partner (who pays them: its
  signal, its copy); the send token stays (the device's own copy pays it). The cells' invariants are allocated for all
  devices under one update, since a device opens its partner's barrier and receive cells. At launch device `c` is
  owed one unit on its barrier cell and the copy's credit on its receive cell, both by its partner.
-/
import proofs.«900680_g7700000000000681_dist_ag_v7x_xyz2x2x4_x_m256_n256_bf16_1_alg».proof.Proof.KProto
import Idealize.ShloMosaic.Lib.Pipeline.Launch
import Idealize.ShloMosaic.Lib.Pipeline.Kit
import Idealize.ShloMosaic.Lib.Pipeline.Cells
import Idealize.ShloMosaic.Lib.Tactic

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
/-- The protocol's cells: three per device. -/
def agCells : Finset (GSem nD τ sig) := Finset.univ.map ⟨kcell, kcell_injective⟩

/-- A device's own cells' duty tokens as minted: one per cell, for round 0's one duty. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def agToks : Finset (GSem nD τ sig × ℕ × Unit) := Finset.univ.map ⟨tokOf, tokOf_injective⟩

def u₀ : UU :=
  (initOf (Pipeline.cells cfgs cellOf_inj) (Pipeline.launchToks cfgs cellOf_inj), initOf agCells agToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`. -/
def G (c : Dev nD) : sProp 𝕄 :=
  iprop((bigSep Finset.univ fun k : Fin 3 => roundState ER (agRd m ρ) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_ag : BI.own (ER (initOf agCells agToks)) ⊢ (|==> bigSep Finset.univ (G m ρ) : sProp 𝕄) := by
  have hX (Φ : GSem nD τ sig → sProp 𝕄) : bigSep agCells Φ = bigSep Finset.univ fun c : Dev nD => bigSep Finset.univ fun k : Fin 3 => Φ (kcell (c, k)) := by
    unfold agCells; rw [bigSep_map, bigSep_univ_prod]; rfl
  have hT : bigSep agToks (fun x => (dutyTok ER x.1 x.2.1 x.2.2 : sProp 𝕄)) = bigSep Finset.univ fun c : Dev nD => toks c := by
    unfold agToks; rw [bigSep_map, bigSep_univ_prod]
    exact bigSep_congr fun c _ => by unfold toks; rw [bigSep_fin3]; rfl
  iintro HX
  imod (Rounds.fund ER (agRd m ρ) agCells agToks) $$ HX with ⟨Hst, Hr, Hat, Htok⟩
  imodintro
  ihave Hst' := (Entails.of_eq (hX fun g => roundState ER (agRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (agRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (agRd m ρ) (kcell (c, k)) 0)
      ⊢ (|={Set.univ}=> bigSep Finset.univ fun k => iprop(∃ κ : ℕ, cellInv ER (agRd m ρ) κ (kcell (c, k))) : sProp 𝕄) from by
        rw [← bigSep_sep']
        exact (bigSep_mono fun k _ => (Rounds.body_intro ER (agRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant at its name, and round 0 reached on every cell: both persistent, so every device may read
    the records of its partner's cells. -/
def records (K : Dev nD × Fin 3 → ℕ) : sProp 𝕄 :=
  iprop((bigSep Finset.univ fun ck : Dev nD × Fin 3 => cellInv ER (agRd m ρ) (K ck) (kcell ck))
    ∗ bigSep Finset.univ fun ck : Dev nD × Fin 3 => reached ER (kcell ck) 0)

instance records_persistent (K : Dev nD × Fin 3 → ℕ) : BI.Persistent (records m ρ K) := by unfold records; infer_instance

theorem inv_at (K : Dev nD × Fin 3 → ℕ) (ck : Dev nD × Fin 3) :
    (bigSep Finset.univ fun ck : Dev nD × Fin 3 => (cellInv ER (agRd m ρ) (K ck) (kcell ck) : sProp 𝕄)) ⊢ cellInv ER (agRd m ρ) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties IT pays — its partner's barrier duty (its
    signal), its partner's receive duty and its own send duty (its copy). -/
def payToks (c : Dev nD) : sProp 𝕄 :=
  iprop(dutyTok ER (barCell (peer c)) 0 () ∗ dutyTok ER (recvCell (peer c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m ρ K ∗ linear c) ⊢ G' m ρ c := by
  unfold records linear payToks G' ghost invs
  iintro ⟨⟨#HI, #HR⟩, ⟨HaB, HaS, HaV⟩, HtB, HtV, HtS⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (peer c, 0)); iexact HI
    iapply (inv_at m ρ K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtB]; · iexact HtB
  isplitl [HtV]; · iexact HtV
  iexact HtS

omit [FloatOps F] in
/-- The tokens dealt across each pair: a device's barrier token and its receive token go to its partner. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv pair (fun c : Dev nD => (dutyTok ER (barCell c) 0 () : sProp 𝕄)),
    bigSep_univ_equiv pair (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (agRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 3 => iprop(∃ κ : ℕ, cellInv ER (agRd m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (agRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device `d` owes device `c`'s barrier cell: a unit if it is `c`'s partner. -/
theorem owed_bar (d c : Dev nD) : O₀ d (barCell c) () = if d = peer c then 1 else 0 := by
  unfold O₀
  rw [Pi.add_apply, Finsupp.add_apply, tallyAt_ne_cell (fun h => recv_ne_bar (congrArg Prod.snd h).symm),
    tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

omit [FloatOps F] in
/-- What it owes `c`'s receive cell: the copy's credit if it is `c`'s partner. -/
theorem owed_recv (d c : Dev nD) : O₀ d (recvCell c) () = if d = peer c then N else 0 := by
  unfold O₀
  rw [Pi.add_apply, Finsupp.add_apply, tallyAt_apply,
    tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c,
    Finset.sum_ite_eq' Finset.univ (peer c) fun _ => N, if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, -⟩
  iexact Hs

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁
  iintro ⟨HzS, HzV⟩
  isplitr; · iempintro
  isplitl [HzS HzV]
  · isplitl [HzS] <;> iassumption
  iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

/-- Each window's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of sixteen devices, for any float values, from any memory with zero counters: given each
    device's body at the one grid point, every weakly fair execution of @main — each pair handshaking on the barrier
    semaphore, then copying its rows across — terminates, and every final state has each device's two arrays at
    `finalA`. -/
theorem run_main (m : (ℓ : Loc nD τ sig) → Buf (Elt F) ℓ) (ρ : Dev nD → PrngReg)
    (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ag m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (m : (ℓ : Loc nD τ sig) → Buf (Elt F) ℓ) (ρ : Dev nD → PrngReg) (c : Dev nD) :
    finalA m ρ c (0 : Fin 2) = (s₀ m ρ).mem (win0_0.arr.view.loc (c : Thread nD τ)) :=
  (dats (F := F) m ρ 0 c).arrAt_in (0 : Fin 2) rfl _

omit [FloatOps F] in
/-- Writing a whole buffer through the unit-stride rectangle of its own sizes at zero offsets, however the zeros are
    spelt, leaves the payload: with the offsets substituted the rectangle is the whole shape. -/
theorem write_access_unit_zero {κ : Kind} (b : Ref sig κ) {off : Fin b.ty.shape.rank → Nat}
    (h : off = fun _ => 0) (inb : ∀ a, off a + b.ty.shape.size a ≤ b.ty.shape.size a) (f w : b.ty.Contents (Elt F)) :
    ((Memref.whole b).access (Rect.unit off b.ty.shape.size inb) : View sig κ _ _ _).write (Elt F) f w Finset.univ = w := by
  subst h; exact Memref.write_access_whole_univ (Elt F) b f w

/-- The output array after the run: written back whole at the one grid point, from the staging buffer the body left at
    the gathered contents. -/
theorem finalA_out (m : (ℓ : Loc nD τ sig) → Buf (Elt F) ℓ) (ρ : Dev nD → PrngReg) (c : Dev nD) :
    finalA m ρ c (1 : Fin 2) = outAt m ρ c := by
  unfold finalA
  have hN : cfg0.N = (t₀ : Fin cfg0.N).val + 1 := cfg0_N.trans rfl
  rw [hN, Dat.arrAt_succ, flush0_1, if_pos rfl]
  exact (write_access_unit_zero (F := F) main_v1 (funext fun a => Nat.zero_mul _) _ _ _).trans rfl

/-- The run at the claims' own spelling of the launch memory: every device's result array ends at the gathered
    contents and its argument array as launched. -/
theorem run_value (m : (ℓ : Loc nD τ sig) → Buf (Elt F) ℓ) (ρ : Dev nD → PrngReg)
    (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt m ρ c ∧ r.2.mem ((c.tc : Thread nD τ).loc main_arg0) = m ((c.tc : Thread nD τ).loc main_arg0)) :=
  (θ_run defs _ _).mono (fun _ h c => ⟨(h c 1).trans (finalA_out m ρ c), (h c 0).trans (finalA_x m ρ c)⟩) (run_main m ρ hbody)

/-- info: 'Cert.Kernel.AG.run_value' depends on axioms: [propext, Classical.choice, Quot.sound] -/
#guard_msgs in #print axioms run_value

end Cert.Kernel.AG

end
-- ==== Proof.Value.lean ====
/-
  The value of the all-gather at the ideal instance. Device c's output buffer ends with rows 0–255 the block of
  its pair's x = 0 device and rows 256–511 the block of its pair's x = 1 device, each converted to bf16; at the
  ideal instance the conversion is the identity. Device d's block is the block of the whole 512×256 array at d's
  mesh coordinate on the x axis, d / 8: rows 256·(d / 8) to 256·(d / 8) + 255. So every device's buffer ends as
  the whole array converted, which is what the one-device program computes.
-/
import proofs.«900680_g7700000000000681_dist_ag_v7x_xyz2x2x4_x_m256_n256_bf16_1_alg».proof.Proof.Proto
import proofs.«900680_g7700000000000681_dist_ag_v7x_xyz2x2x4_x_m256_n256_bf16_1_alg».proof.Proof.Gen.ReferenceIdeal.Run
import proofs.«900680_g7700000000000681_dist_ag_v7x_xyz2x2x4_x_m256_n256_bf16_1_alg».proof.Proof.Gen.ReferenceIdeal.Read
import proofs.«900680_g7700000000000681_dist_ag_v7x_xyz2x2x4_x_m256_n256_bf16_1_alg».proof.Proof.Gen.Pre_finite_inputs_Kernel
import proofs.«900680_g7700000000000681_dist_ag_v7x_xyz2x2x4_x_m256_n256_bf16_1_alg».proof.Proof.Gen.Pre_finite_inputs_ReferenceIdeal
import proofs.«900680_g7700000000000681_dist_ag_v7x_xyz2x2x4_x_m256_n256_bf16_1_alg».proof.Defs
import Idealize.ShloMosaic.Lib.Layout
import Idealize.ShloMosaic.Lib.ValueIdx
import Idealize.ShloMosaic.Lib.Pipeline.Value

noncomputable section

namespace Cert.KernelIdeal.AGValue

open Idealize.ShloMosaic Idealize.SL.Sem
open Idealize.ShloMosaic.TcCoe
open Cert.KernelIdeal Cert.KernelIdeal.Gen Cert.KernelIdeal.AG

/-! ## The one-device program -/

/-- The one-device program runs and leaves its argument unchanged: its run with the result dropped. -/
theorem frame_ri : Cert.frame_ReferenceIdeal :=
  fun m ρ _ => (θ_run Cert.ReferenceIdeal.defs _ _).mono (fun _ h c => (h c).2) (Cert.ReferenceIdeal.Value.run (F := Ideal) m ρ)

/-! ## A device's block -/

section Block
variable (m : (ℓ : Loc nD τ sig) → Buf (Elt Ideal) ℓ) (ρ : Dev nD → PrngReg)

/-- The staged block is the device's argument buffer: the window is the whole array. -/
theorem xstg_eq (d : Dev nD) : xstg m ρ d = m ((d : Thread nD τ).loc main_arg0) := by
  unfold xstg
  exact Memref.read_access_unit_zero (Elt Ideal) main_arg0 (off := fun a => win0_0.index (0 : Fin 1) a * win0_0.size a)
    (funext fun a => Nat.zero_mul _) _ _

/-- At the ideal instance the conversion changes nothing: what a device stores is its argument block. -/
theorem conv_apply (d : Dev nD) (j : S256x256.Idx) : conv m ρ d j = m ((d : Thread nD τ).loc main_arg0) j := by
  unfold conv k0_pay1
  show (truncf .bf16 (shapeCast S256x256 (xstg m ρ d) shapeCasts_S256x256_S256x256) bitsLt_bf16_f32 : FVec Ideal S256x256 .bf16) j = _
  rw [ValueIdx.truncf_apply]
  exact (congrFun (shapeCast_self (s := S256x256) (xstg m ρ d) shapeCasts_S256x256_S256x256) j).trans (congrFun (xstg_eq m ρ d) j)

end Block

/-! ## The mesh -/

/-- A device's block coordinate along the rows is its x coordinate, device / 8; the columns are not cut. -/
theorem mesh_row (d : Dev nD) : ((Layout.meshBlock [2, 2, 4] ![[0], []] d) 0).val = d.val / 8 := by revert d; decide
theorem mesh_col (d : Dev nD) : ((Layout.meshBlock [2, 2, 4] ![[0], []] d) 1).val = 0 := by revert d; decide

/-! ## Every device ends with the whole array converted -/

/-- Device c's final output buffer is the one-device program's result: index by index, a row below 256 comes from
    the pair's x = 0 device, whose block is rows 0–255 of the whole array, a row from 256 on from the x = 1 device,
    whose block is rows 256–511. -/
theorem outAt_eq_ref
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.blockN ⟨2, ![256, 256]⟩ ⟨2, ![512, 256]⟩ (Layout.meshBlock [2, 2, 4] ![[0], []] c) (m' (((0 : Dev Cert.ReferenceIdeal.nD).tc : Thread Cert.ReferenceIdeal.nD Cert.ReferenceIdeal.τ).loc Cert.ReferenceIdeal.main_arg0)))
    (c : Dev Cert.KernelIdeal.nD) :
    Cert.KernelIdeal.AG.outAt (F := Ideal) m ρ c
      = truncf (F := Ideal) (s := Cert.ReferenceIdeal.S512x256) (φ := .f32) .bf16 (m' (((0 : Dev Cert.ReferenceIdeal.nD).tc : Thread Cert.ReferenceIdeal.nD Cert.ReferenceIdeal.τ).loc Cert.ReferenceIdeal.main_arg0)) Cert.ReferenceIdeal.Gen.bitsLt_bf16_f32 := by
  funext i
  have hi0 : (i 0).val < 512 := (i 0).isLt
  show outAt m ρ c i = m' (((0 : Dev Cert.ReferenceIdeal.nD).tc : Thread Cert.ReferenceIdeal.nD Cert.ReferenceIdeal.τ).loc Cert.ReferenceIdeal.main_arg0) i
  unfold outAt
  have hlo : (lo c).val / 8 = 0 := by have : (lo c).val = c.val % 8 := rfl; omega
  have hhi : (hi c).val / 8 = 1 := by have : (hi c).val = c.val % 8 + 8 := rfl; omega
  by_cases h : (i 0).val < 256
  · rw [dif_pos h, conv_apply, hagree (lo c), Layout.blockN_apply]
    congr 1
    funext b
    match b with
    | ⟨0, _⟩ =>
      apply Fin.ext
      show ((Layout.meshBlock [2, 2, 4] ![[0], []] (lo c)) 0).val * 256 + (i 0).val = (i 0).val
      rw [mesh_row, hlo]; omega
    | ⟨1, _⟩ =>
      apply Fin.ext
      show ((Layout.meshBlock [2, 2, 4] ![[0], []] (lo c)) 1).val * 256 + (i 1).val = (i 1).val
      rw [mesh_col]; omega
  · rw [dif_neg h, conv_apply, hagree (hi c), Layout.blockN_apply]
    congr 1
    funext b
    match b with
    | ⟨0, _⟩ =>
      apply Fin.ext
      show ((Layout.meshBlock [2, 2, 4] ![[0], []] (hi c)) 0).val * 256 + ((i 0).val - 256) = (i 0).val
      rw [mesh_row, hhi]; omega
    | ⟨1, _⟩ =>
      apply Fin.ext
      show ((Layout.meshBlock [2, 2, 4] ![[0], []] (hi c)) 1).val * 256 + (i 1).val = (i 1).val
      rw [mesh_col]; omega

/-! ## The comparison with the one-device program -/

/-- From the kernel's run with its result named: both programs run, every device's result is the one-device
    program's, and the arguments of both are unchanged. -/
theorem algebraic_of
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v1) = Cert.KernelIdeal.AG.outAt (F := Ideal) m ρ c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))) :
    Cert.algebraic_KernelIdeal_ReferenceIdeal := by
  intro m g m' g' _ hagree
  refine ⟨truncf (F := Ideal) (s := Cert.ReferenceIdeal.S512x256) (φ := .f32) .bf16 (m' (((0 : Dev Cert.ReferenceIdeal.nD).tc : Thread Cert.ReferenceIdeal.nD Cert.ReferenceIdeal.τ).loc Cert.ReferenceIdeal.main_arg0)) Cert.ReferenceIdeal.Gen.bitsLt_bf16_f32, ?_, ?_⟩
  · exact (θ_run _ _ _).mono (fun r h c => ⟨(h c).1.trans (outAt_eq_ref m g m' hagree c), (h c).2⟩) (hrun m g)
  · exact (θ_run _ _ _).mono (fun r h => h 0) (Cert.ReferenceIdeal.Value.run (F := Ideal) m' g')

/-- info: 'Cert.KernelIdeal.AGValue.frame_ri' depends on axioms: [propext, Classical.choice, Quot.sound] -/
#guard_msgs in #print axioms frame_ri
/-- info: 'Cert.KernelIdeal.AGValue.outAt_eq_ref' depends on axioms: [propext, Classical.choice, Quot.sound] -/
#guard_msgs in #print axioms outAt_eq_ref
/-- info: 'Cert.KernelIdeal.AGValue.algebraic_of' depends on axioms: [propext, Classical.choice, Quot.sound] -/
#guard_msgs in #print axioms algebraic_of

end Cert.KernelIdeal.AGValue

end
-- ==== Proof.lean ====
/-
  An all-gather over the x axis of a 2×2×4 mesh against the identity on the whole array.

  Sixteen devices, device number 8x + 4y + z; device c holds block c / 8 (256 rows) of a 512×256 f32 array.
  Each device converts its block to bf16 into its own rows of a 512×256 output buffer, tells its partner
  (the device c ± 8: the other x, the same y and z) that it has entered the kernel, waits for the partner's
  word, copies its rows into the same rows of the partner's buffer and waits until its copy has left and the
  partner's has landed. The two copies of a pair write disjoint rows, and a device only writes into its
  partner's buffer after the partner has said it is inside the kernel, so every device's buffer ends with
  rows 0–255 the converted block of the pair's x = 0 device and rows 256–511 that of its x = 1 device: the
  whole array, converted. At the ideal instance the conversion is the identity, and the one-device program
  returns the whole array converted: the two results are equal, index by index.

  The frames of the two kernel programs are the run (Proof/Launch.lean over the protocol of Proof/Proto.lean
  and the body of Proof/Body.lean; the word-level program's copies are the K-modules) with the result dropped;
  the one-device program's frame and the comparison of the results are in Proof/Value.lean. The idealization
  rewrote no operation: nothing to preserve.
-/
import proofs.«900680_g7700000000000681_dist_ag_v7x_xyz2x2x4_x_m256_n256_bf16_1_alg».proof.Defs
import proofs.«900680_g7700000000000681_dist_ag_v7x_xyz2x2x4_x_m256_n256_bf16_1_alg».proof.Proof.Gen.Kernel
import proofs.«900680_g7700000000000681_dist_ag_v7x_xyz2x2x4_x_m256_n256_bf16_1_alg».proof.Proof.Gen.KernelIdeal
import proofs.«900680_g7700000000000681_dist_ag_v7x_xyz2x2x4_x_m256_n256_bf16_1_alg».proof.Proof.Gen.ReferenceIdeal
import proofs.«900680_g7700000000000681_dist_ag_v7x_xyz2x2x4_x_m256_n256_bf16_1_alg».proof.Proof.Gen.Pre_finite_inputs_Kernel
import proofs.«900680_g7700000000000681_dist_ag_v7x_xyz2x2x4_x_m256_n256_bf16_1_alg».proof.Proof.Gen.Pre_finite_inputs_ReferenceIdeal
import proofs.«900680_g7700000000000681_dist_ag_v7x_xyz2x2x4_x_m256_n256_bf16_1_alg».proof.Proof.Body
import proofs.«900680_g7700000000000681_dist_ag_v7x_xyz2x2x4_x_m256_n256_bf16_1_alg».proof.Proof.Launch
import proofs.«900680_g7700000000000681_dist_ag_v7x_xyz2x2x4_x_m256_n256_bf16_1_alg».proof.Proof.KBody
import proofs.«900680_g7700000000000681_dist_ag_v7x_xyz2x2x4_x_m256_n256_bf16_1_alg».proof.Proof.KLaunch
import proofs.«900680_g7700000000000681_dist_ag_v7x_xyz2x2x4_x_m256_n256_bf16_1_alg».proof.Proof.Value

noncomputable section

namespace Cert.Proof

open Idealize.ShloMosaic Idealize.SL.Sem

/-- The word-level kernel runs on all sixteen devices and leaves every argument block unchanged. -/
theorem frame_k : Cert.frame_Kernel (hKernel := Cert.Kernel.Gen.facts) (hPre_finite_inputs_Kernel := Cert.Pre_finite_inputs_Kernel.Gen.facts) :=
  fun m g _ => (θ_run _ _ _).mono (fun _ h c => (h c).2)
    (Cert.Kernel.AG.run_value (F := Bits) m g (Cert.Kernel.AG.body_obligation m g))

/-- The idealized kernel likewise. -/
theorem frame_ki : Cert.frame_KernelIdeal (hKernelIdeal := Cert.KernelIdeal.Gen.facts) (hPre_finite_inputs_Kernel := Cert.Pre_finite_inputs_Kernel.Gen.facts) :=
  fun m g _ => (θ_run _ _ _).mono (fun _ h c => (h c).2)
    (Cert.KernelIdeal.AG.run_value (F := Ideal) m g (Cert.KernelIdeal.AG.body_obligation m g))

/-- Every device's result is the whole array converted, the one-device program's result. -/
theorem algebraic : Cert.algebraic_KernelIdeal_ReferenceIdeal (hKernelIdeal := Cert.KernelIdeal.Gen.facts) (hReferenceIdeal := Cert.ReferenceIdeal.Gen.facts)
    (hPre_finite_inputs_Kernel := Cert.Pre_finite_inputs_Kernel.Gen.facts) :=
  Cert.KernelIdeal.AGValue.algebraic_of fun m g =>
    Cert.KernelIdeal.AG.run_value (F := Ideal) m g (Cert.KernelIdeal.AG.body_obligation m g)

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, Cert.KernelIdeal.AGValue.frame_ri, trivial, algebraic⟩

end Cert.Proof

end
